-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12000x256 : Shape := ⟨2, ![12000, 256]⟩
abbrev S2x384000 : Shape := ⟨2, ![2, 384000]⟩
abbrev S256x128 : Shape := ⟨2, ![256, 128]⟩
abbrev S128 : Shape := ⟨1, ![128]⟩
abbrev S_ : Shape := ⟨0, ![]⟩

class Facts : Prop where
  bcast_S_S12000x256 : S_.BroadcastsInDim S12000x256 (![] : Fin 0 → Fin S12000x256.rank)
  reducesTo_S12000x256_S_d0_1 : S12000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S12000x256 .f32) (main_arg1 : IVec S2x384000 32) (main_arg2 : FVec F S256x128 .f32) (main_arg3 : FVec F S128 .f32) (main_arg4 : FVec F S128 .f32) (main_arg5 : FVec F S128 .f32) : IVec S_ 1 :=
  let main_v0 : FVec F S12000x256 .f32 := Host.absf main_arg0
  let main_cst : FVec F S_ .f32 := constant S_ .f32 0x7F800000#32
  let main_v1 : FVec F S12000x256 .f32 := broadcastInDim S12000x256 ![] bcast_S_S12000x256 main_cst
  let main_v2 : IVec S12000x256 1 := cmpf .olt main_v0 main_v1
  let main_c : IVec S_ 1 := constantI S_ 1 1#1
  let main_v3 : IVec S_ 1 := (fun x v => Host.reduce IntOp.andi x v reducesTo_S12000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S12000x256 : Shape := ⟨2, ![12000, 256]⟩
abbrev S2x384000 : Shape := ⟨2, ![2, 384000]⟩
abbrev S256x128 : Shape := ⟨2, ![256, 128]⟩
abbrev S128 : Shape := ⟨1, ![128]⟩
abbrev S12000 : Shape := ⟨1, ![12000]⟩
abbrev S1x384000 : Shape := ⟨2, ![1, 384000]⟩
abbrev S384000 : Shape := ⟨1, ![384000]⟩
abbrev S396000 : Shape := ⟨1, ![396000]⟩
abbrev S_ : Shape := ⟨0, ![]⟩
abbrev S396000x1 : Shape := ⟨2, ![396000, 1]⟩
abbrev S12000x128 : Shape := ⟨2, ![12000, 128]⟩
abbrev S396000x128 : Shape := ⟨2, ![396000, 128]⟩
abbrev S1x128 : Shape := ⟨2, ![1, 128]⟩
abbrev S12288x128 : Shape := ⟨2, ![12288, 128]⟩
abbrev S12288x12288 : Shape := ⟨2, ![12288, 12288]⟩
abbrev S1536x128 : Shape := ⟨2, ![1536, 128]⟩
abbrev S1536x1536 : Shape := ⟨2, ![1536, 1536]⟩
abbrev S12000x12000 : Shape := ⟨2, ![12000, 12000]⟩

abbrev nBuf : Space → Nat
  | .hbm => 98
  | .vmem => 6
  | .smem => 0
  | _ => 0

abbrev bufTy : (tb : Table) → Fin (tcTables nBuf tb) → BufTy
  | .hbm, ⟨0, _⟩ => ⟨S12000x256, .f32⟩
  | .hbm, ⟨1, _⟩ => ⟨S2x384000, .i32⟩
  | .hbm, ⟨2, _⟩ => ⟨S256x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S12000, .i32⟩
  | .hbm, ⟨7, _⟩ => ⟨S1x384000, .i32⟩
  | .hbm, ⟨8, _⟩ => ⟨S384000, .i32⟩
  | .hbm, ⟨9, _⟩ => ⟨S396000, .i32⟩
  | .hbm, ⟨10, _⟩ => ⟨S1x384000, .i32⟩
  | .hbm, ⟨11, _⟩ => ⟨S384000, .i32⟩
  | .hbm, ⟨12, _⟩ => ⟨S396000, .i32⟩
  | .hbm, ⟨13, _⟩ => ⟨S_, .f32⟩
  | .hbm, ⟨14, _⟩ => ⟨S396000, .f32⟩
  | .hbm, ⟨15, _⟩ => ⟨S_, .f32⟩
  | .hbm, ⟨16, _⟩ => ⟨S12000, .f32⟩
  | .hbm, ⟨17, _⟩ => ⟨S396000x1, .i32⟩
  | .hbm, ⟨18, _⟩ => ⟨S12000, .f32⟩
  | .hbm, ⟨19, _⟩ => ⟨S12000, .f32⟩
  | .hbm, ⟨20, _⟩ => ⟨S_, .i32⟩
  | .hbm, ⟨21, _⟩ => ⟨S396000, .i32⟩
  | .hbm, ⟨22, _⟩ => ⟨S396000, .i1⟩
  | .hbm, ⟨23, _⟩ => ⟨S_, .i32⟩
  | .hbm, ⟨24, _⟩ => ⟨S396000, .i32⟩
  | .hbm, ⟨25, _⟩ => ⟨S396000, .i32⟩
  | .hbm, ⟨26, _⟩ => ⟨S396000, .i32⟩
  | .hbm, ⟨27, _⟩ => ⟨S396000x1, .i32⟩
  | .hbm, ⟨28, _⟩ => ⟨S396000, .f32⟩
  | .hbm, ⟨29, _⟩ => ⟨S_, .i32⟩
  | .hbm, ⟨30, _⟩ => ⟨S396000, .i32⟩
  | .hbm, ⟨31, _⟩ => ⟨S396000, .i1⟩
  | .hbm, ⟨32, _⟩ => ⟨S_, .i32⟩
  | .hbm, ⟨33, _⟩ => ⟨S396000, .i32⟩
  | .hbm, ⟨34, _⟩ => ⟨S396000, .i32⟩
  | .hbm, ⟨35, _⟩ => ⟨S396000, .i32⟩
  | .hbm, ⟨36, _⟩ => ⟨S396000x1, .i32⟩
  | .hbm, ⟨37, _⟩ => ⟨S396000, .f32⟩
  | .hbm, ⟨38, _⟩ => ⟨S396000, .f32⟩
  | .hbm, ⟨39, _⟩ => ⟨S12000x128, .f32⟩
  | .hbm, ⟨40, _⟩ => ⟨S_, .i32⟩
  | .hbm, ⟨41, _⟩ => ⟨S396000, .i32⟩
  | .hbm, ⟨42, _⟩ => ⟨S396000, .i1⟩
  | .hbm, ⟨43, _⟩ => ⟨S_, .i32⟩
  | .hbm, ⟨44, _⟩ => ⟨S396000, .i32⟩
  | .hbm, ⟨45, _⟩ => ⟨S396000, .i32⟩
  | .hbm, ⟨46, _⟩ => ⟨S396000, .i32⟩
  | .hbm, ⟨47, _⟩ => ⟨S396000x1, .i32⟩
  | .hbm, ⟨48, _⟩ => ⟨S396000x128, .f32⟩
  | .hbm, ⟨49, _⟩ => ⟨S396000x1, .f32⟩
  | .hbm, ⟨50, _⟩ => ⟨S396000x128, .f32⟩
  | .hbm, ⟨51, _⟩ => ⟨S396000x128, .f32⟩
  | .hbm, ⟨52, _⟩ => ⟨S_, .f32⟩
  | .hbm, ⟨53, _⟩ => ⟨S12000x128, .f32⟩
  | .hbm, ⟨54, _⟩ => ⟨S396000x1, .i32⟩
  | .hbm, ⟨55, _⟩ => ⟨S12000x128, .f32⟩
  | .hbm, ⟨56, _⟩ => ⟨S1x128, .f32⟩
  | .hbm, ⟨57, _⟩ => ⟨S12000x128, .f32⟩
  | .hbm, ⟨58, _⟩ => ⟨S12000x128, .f32⟩
  | .hbm, ⟨59, _⟩ => ⟨S_, .f32⟩
  | .hbm, ⟨60, _⟩ => ⟨S128, .f32⟩
  | .hbm, ⟨61, _⟩ => ⟨S_, .f32⟩
  | .hbm, ⟨62, _⟩ => ⟨S128, .f32⟩
  | .hbm, ⟨63, _⟩ => ⟨S128, .f32⟩
  | .hbm, ⟨64, _⟩ => ⟨S1x128, .f32⟩
  | .hbm, ⟨65, _⟩ => ⟨S12000x128, .f32⟩
  | .hbm, ⟨66, _⟩ => ⟨S12000x128, .f32⟩
  | .hbm, ⟨67, _⟩ => ⟨S12000x128, .f32⟩
  | .hbm, ⟨68, _⟩ => ⟨S_, .f32⟩
  | .hbm, ⟨69, _⟩ => ⟨S128, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S1x128, .f32⟩
  | .hbm, ⟨74, _⟩ => ⟨S12000x128, .f32⟩
  | .hbm, ⟨75, _⟩ => ⟨S12000x128, .f32⟩
  | .hbm, ⟨76, _⟩ => ⟨S_, .f32⟩
  | .hbm, ⟨77, _⟩ => ⟨S128, .f32⟩
  | .hbm, ⟨78, _⟩ => ⟨S128, .f32⟩
  | .hbm, ⟨79, _⟩ => ⟨S128, .f32⟩
  | .hbm, ⟨80, _⟩ => ⟨S1x128, .f32⟩
  | .hbm, ⟨81, _⟩ => ⟨S12000x128, .f32⟩
  | .hbm, ⟨82, _⟩ => ⟨S12000x128, .f32⟩
  | .hbm, ⟨83, _⟩ => ⟨S1x128, .f32⟩
  | .hbm, ⟨84, _⟩ => ⟨S12000x128, .f32⟩
  | .hbm, ⟨85, _⟩ => ⟨S12000x128, .f32⟩
  | .hbm, ⟨86, _⟩ => ⟨S1x128, .f32⟩
  | .hbm, ⟨87, _⟩ => ⟨S12000x128, .f32⟩
  | .hbm, ⟨88, _⟩ => ⟨S12000x128, .f32⟩
  | .hbm, ⟨89, _⟩ => ⟨S_, .f32⟩
  | .hbm, ⟨90, _⟩ => ⟨S12000x128, .f32⟩
  | .hbm, ⟨91, _⟩ => ⟨S12000x128, .f32⟩
  | .hbm, ⟨92, _⟩ => ⟨S_, .i32⟩
  | .hbm, ⟨93, _⟩ => ⟨S_, .f32⟩
  | .hbm, ⟨94, _⟩ => ⟨S12288x128, .f32⟩
  | .hbm, ⟨95, _⟩ => ⟨S12288x128, .bf16⟩
  | .hbm, ⟨96, _⟩ => ⟨S12288x12288, .f32⟩
  | .hbm, ⟨97, _⟩ => ⟨S12000x12000, .f32⟩
  | .local _ .vmem, ⟨0, _⟩ => ⟨S1536x128, .bf16⟩
  | .local _ .vmem, ⟨1, _⟩ => ⟨S1536x128, .bf16⟩
  | .local _ .vmem, ⟨2, _⟩ => ⟨S1536x128, .bf16⟩
  | .local _ .vmem, ⟨3, _⟩ => ⟨S1536x128, .bf16⟩
  | .local _ .vmem, ⟨4, _⟩ => ⟨S1536x1536, .f32⟩
  | .local _ .vmem, ⟨5, _⟩ => ⟨S1536x1536, .f32⟩
  | _, _ => ⟨S12000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_call0_cst : Ref sig .tc := ⟨.hbm, 89, rfl⟩
abbrev main_call0_v0 : Ref sig .tc := ⟨.hbm, 90, rfl⟩
abbrev main_v69 : Ref sig .tc := ⟨.hbm, 91, rfl⟩
abbrev main_c_12 : Ref sig .tc := ⟨.hbm, 92, rfl⟩
abbrev main_call1_v0 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1536x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1536x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1536x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S2x384000_S1x384000_0_0 : S2x384000.Slices ![0, 0] S1x384000
  shapeCasts_S1x384000_S384000 : S1x384000.ShapeCasts S384000
  concatenates_S384000_S12000_S396000_d0 : Shape.Concatenates [S384000, S12000] S396000 0
  slices_S2x384000_S1x384000_1_0 : S2x384000.Slices ![1, 0] S1x384000
  bcast_S_S396000 : S_.BroadcastsInDim S396000 (![] : Fin 0 → Fin S396000.rank)
  bcast_S_S12000 : S_.BroadcastsInDim S12000 (![] : Fin 0 → Fin S12000.rank)
  bcast_S396000_S396000x1_0 : S396000.BroadcastsInDim S396000x1 (![0] : Fin 1 → Fin S396000x1.rank)
  bcast_S396000x1_S396000x128_0_1 : S396000x1.BroadcastsInDim S396000x128 (![0, 1] : Fin 2 → Fin S396000x128.rank)
  bcast_S_S12000x128 : S_.BroadcastsInDim S12000x128 (![] : Fin 0 → Fin S12000x128.rank)
  bcast_S128_S1x128_1 : S128.BroadcastsInDim S1x128 (![1] : Fin 1 → Fin S1x128.rank)
  bcast_S1x128_S12000x128_0_1 : S1x128.BroadcastsInDim S12000x128 (![0, 1] : Fin 2 → Fin S12000x128.rank)
  reducesTo_S12000x128_S128_d0 : S12000x128.ReducesTo [0] S128
  h_S_ : 0 < S_.numel
  bcast_S_S128 : S_.BroadcastsInDim S128 (![] : Fin 0 → Fin S128.rank)
  pads_S12000x128_S12288x128_02880_000 : S12000x128.Pads (![0, 0] : Fin 2 → Nat) ![288, 0] ![0, 0] S12288x128
  bitsLt_bf16_f32 : FTy.bits .bf16 < FTy.bits .f32
  inb_S1536x128_S1536x128_0_0 : ∀ a, (![0, 0] : Fin 2 → Nat) a + S1536x128.size a ≤ S1536x128.size a
  h_S1536x128 : 0 < S1536x128.numel
  shapeCasts_S1536x128_S1536x128 : S1536x128.ShapeCasts S1536x128
  inb_S1536x1536_S1536x1536_0_0 : ∀ a, (![0, 0] : Fin 2 → Nat) a + S1536x1536.size a ≤ S1536x1536.size a
  h_S1536x1536 : 0 < S1536x1536.numel
  slices_S12288x12288_S12000x12000_0_0 : S12288x12288.Slices ![0, 0] S12000x12000
  scatter_S12000_S396000x1_S396000_n_0_0_1_wf : ScatterDims.WF S12000 S396000x1 S396000 [] [0] [0] 1
  gather_S12000_S396000x1_S396000_n_0_n_n_0_1_1_wf : GatherDims.WF S12000 S396000x1 S396000 [] [0] [] [0] [] 1 ![1]
  dot_S12000x256_S256x128_S12000x128_1_0_0_1_n_n_wf : DotDims.WF S12000x256 S256x128 S12000x128 [1] [0] [0] [1] [] []
  gather_S12000x128_S396000x1_S396000x128_1_0_n_n_0_1_1128_wf : GatherDims.WF S12000x128 S396000x1 S396000x128 [1] [0] [] [0] [] 1 ![1, 128]
  scatter_S12000x128_S396000x1_S396000x128_1_0_0_1_wf : ScatterDims.WF S12000x128 S396000x1 S396000x128 [1] [0] [0] 1
  dot_S1536x128_S1536x128_S1536x1536_1_1_0_0_n_n_wf : DotDims.WF S1536x128 S1536x128 S1536x1536 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1536x128.size a ≤ S12288x128.size a
  hwx0_0 : ∀ i : grid0.Coords, EltTy.bits .bf16 = 32 ∨ (Rect.block (s := S12288x128) S1536x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1536x128.size a ≤ S12288x128.size a
  hwx0_1 : ∀ i : grid0.Coords, EltTy.bits .bf16 = 32 ∨ (Rect.block (s := S12288x128) S1536x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1536x1536.size a ≤ S12288x12288.size a
  hwx0_2 : ∀ i : grid0.Coords, EltTy.bits .f32 = 32 ∨ (Rect.block (s := S12288x12288) S1536x1536.size (cc0_transform_2 i) (hinb0_2 i)).WholeWords (EltTy.packing .f32)

variable [Facts₀]

def scatter_S12000_S396000x1_S396000_n_0_0_1 : ScatterDims S12000 S396000x1 S396000 where
  updateWindowDims := []
  insertedWindowDims := [0]
  scatterDimsToOperandDims := [0]
  indexVectorDim := 1
  wf := scatter_S12000_S396000x1_S396000_n_0_0_1_wf
def gather_S12000_S396000x1_S396000_n_0_n_n_0_1_1 : GatherDims S12000 S396000x1 S396000 where
  offsetDims := []
  collapsedSliceDims := [0]
  operandBatchingDims := []
  startIndicesBatchingDims := []
  startIndexMap := [0]
  indexVectorDim := 1
  sliceSizes := ![1]
  wf := gather_S12000_S396000x1_S396000_n_0_n_n_0_1_1_wf
def dot_S12000x256_S256x128_S12000x128_1_0_0_1_n_n : DotDims S12000x256 S256x128 S12000x128 where
  lhsContracting := [1]
  rhsContracting := [0]
  lhsNonContracting := [0]
  rhsNonContracting := [1]
  lhsBatch := []
  rhsBatch := []
  wf := dot_S12000x256_S256x128_S12000x128_1_0_0_1_n_n_wf
def gather_S12000x128_S396000x1_S396000x128_1_0_n_n_0_1_1128 : GatherDims S12000x128 S396000x1 S396000x128 where
  offsetDims := [1]
  collapsedSliceDims := [0]
  operandBatchingDims := []
  startIndicesBatchingDims := []
  startIndexMap := [0]
  indexVectorDim := 1
  sliceSizes := ![1, 128]
  wf := gather_S12000x128_S396000x1_S396000x128_1_0_n_n_0_1_1128_wf
def scatter_S12000x128_S396000x1_S396000x128_1_0_0_1 : ScatterDims S12000x128 S396000x1 S396000x128 where
  updateWindowDims := [1]
  insertedWindowDims := [0]
  scatterDimsToOperandDims := [0]
  indexVectorDim := 1
  wf := scatter_S12000x128_S396000x1_S396000x128_1_0_0_1_wf
def dot_S1536x128_S1536x128_S1536x1536_1_1_0_0_n_n : DotDims S1536x128 S1536x128 S1536x1536 where
  lhsContracting := [1]
  rhsContracting := [1]
  lhsNonContracting := [0]
  rhsNonContracting := [0]
  lhsBatch := []
  rhsBatch := []
  wf := dot_S1536x128_S1536x128_S1536x1536_1_1_0_0_n_n_wf

abbrev win0_0 : Pipeline.Window sig grid0 :=
  Pipeline.Window.ofSpec (Memref.whole main_v71) S1536x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v71) S1536x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v72) S1536x1536.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S12000x256 : Shape := ⟨2, ![12000, 256]⟩
abbrev S2x384000 : Shape := ⟨2, ![2, 384000]⟩
abbrev S256x128 : Shape := ⟨2, ![256, 128]⟩
abbrev S128 : Shape := ⟨1, ![128]⟩
abbrev S12000 : Shape := ⟨1, ![12000]⟩
abbrev S1x384000 : Shape := ⟨2, ![1, 384000]⟩
abbrev S384000 : Shape := ⟨1, ![384000]⟩
abbrev S396000 : Shape := ⟨1, ![396000]⟩
abbrev S_ : Shape := ⟨0, ![]⟩
abbrev S396000x1 : Shape := ⟨2, ![396000, 1]⟩
abbrev S12000x128 : Shape := ⟨2, ![12000, 128]⟩
abbrev S396000x128 : Shape := ⟨2, ![396000, 128]⟩
abbrev S1x128 : Shape := ⟨2, ![1, 128]⟩
abbrev S128x12000 : Shape := ⟨2, ![128, 12000]⟩
abbrev S12000x12000 : Shape := ⟨2, ![12000, 12000]⟩

abbrev nBuf : Space → Nat
  | .hbm => 94
  | .vmem => 0
  | .smem => 0
  | _ => 0

abbrev bufTy : (tb : Table) → Fin (tcTables nBuf tb) → BufTy
  | .hbm, ⟨0, _⟩ => ⟨S12000x256, .f32⟩
  | .hbm, ⟨1, _⟩ => ⟨S2x384000, .i32⟩
  | .hbm, ⟨2, _⟩ => ⟨S256x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S12000, .i32⟩
  | .hbm, ⟨7, _⟩ => ⟨S1x384000, .i32⟩
  | .hbm, ⟨8, _⟩ => ⟨S384000, .i32⟩
  | .hbm, ⟨9, _⟩ => ⟨S396000, .i32⟩
  | .hbm, ⟨10, _⟩ => ⟨S1x384000, .i32⟩
  | .hbm, ⟨11, _⟩ => ⟨S384000, .i32⟩
  | .hbm, ⟨12, _⟩ => ⟨S396000, .i32⟩
  | .hbm, ⟨13, _⟩ => ⟨S_, .f32⟩
  | .hbm, ⟨14, _⟩ => ⟨S396000, .f32⟩
  | .hbm, ⟨15, _⟩ => ⟨S_, .f32⟩
  | .hbm, ⟨16, _⟩ => ⟨S12000, .f32⟩
  | .hbm, ⟨17, _⟩ => ⟨S396000x1, .i32⟩
  | .hbm, ⟨18, _⟩ => ⟨S12000, .f32⟩
  | .hbm, ⟨19, _⟩ => ⟨S12000, .f32⟩
  | .hbm, ⟨20, _⟩ => ⟨S_, .i32⟩
  | .hbm, ⟨21, _⟩ => ⟨S396000, .i32⟩
  | .hbm, ⟨22, _⟩ => ⟨S396000, .i1⟩
  | .hbm, ⟨23, _⟩ => ⟨S_, .i32⟩
  | .hbm, ⟨24, _⟩ => ⟨S396000, .i32⟩
  | .hbm, ⟨25, _⟩ => ⟨S396000, .i32⟩
  | .hbm, ⟨26, _⟩ => ⟨S396000, .i32⟩
  | .hbm, ⟨27, _⟩ => ⟨S396000x1, .i32⟩
  | .hbm, ⟨28, _⟩ => ⟨S396000, .f32⟩
  | .hbm, ⟨29, _⟩ => ⟨S_, .i32⟩
  | .hbm, ⟨30, _⟩ => ⟨S396000, .i32⟩
  | .hbm, ⟨31, _⟩ => ⟨S396000, .i1⟩
  | .hbm, ⟨32, _⟩ => ⟨S_, .i32⟩
  | .hbm, ⟨33, _⟩ => ⟨S396000, .i32⟩
  | .hbm, ⟨34, _⟩ => ⟨S396000, .i32⟩
  | .hbm, ⟨35, _⟩ => ⟨S396000, .i32⟩
  | .hbm, ⟨36, _⟩ => ⟨S396000x1, .i32⟩
  | .hbm, ⟨37, _⟩ => ⟨S396000, .f32⟩
  | .hbm, ⟨38, _⟩ => ⟨S396000, .f32⟩
  | .hbm, ⟨39, _⟩ => ⟨S12000x128, .f32⟩
  | .hbm, ⟨40, _⟩ => ⟨S_, .i32⟩
  | .hbm, ⟨41, _⟩ => ⟨S396000, .i32⟩
  | .hbm, ⟨42, _⟩ => ⟨S396000, .i1⟩
  | .hbm, ⟨43, _⟩ => ⟨S_, .i32⟩
  | .hbm, ⟨44, _⟩ => ⟨S396000, .i32⟩
  | .hbm, ⟨45, _⟩ => ⟨S396000, .i32⟩
  | .hbm, ⟨46, _⟩ => ⟨S396000, .i32⟩
  | .hbm, ⟨47, _⟩ => ⟨S396000x1, .i32⟩
  | .hbm, ⟨48, _⟩ => ⟨S396000x128, .f32⟩
  | .hbm, ⟨49, _⟩ => ⟨S396000x1, .f32⟩
  | .hbm, ⟨50, _⟩ => ⟨S396000x128, .f32⟩
  | .hbm, ⟨51, _⟩ => ⟨S396000x128, .f32⟩
  | .hbm, ⟨52, _⟩ => ⟨S_, .f32⟩
  | .hbm, ⟨53, _⟩ => ⟨S12000x128, .f32⟩
  | .hbm, ⟨54, _⟩ => ⟨S396000x1, .i32⟩
  | .hbm, ⟨55, _⟩ => ⟨S12000x128, .f32⟩
  | .hbm, ⟨56, _⟩ => ⟨S1x128, .f32⟩
  | .hbm, ⟨57, _⟩ => ⟨S12000x128, .f32⟩
  | .hbm, ⟨58, _⟩ => ⟨S12000x128, .f32⟩
  | .hbm, ⟨59, _⟩ => ⟨S_, .f32⟩
  | .hbm, ⟨60, _⟩ => ⟨S128, .f32⟩
  | .hbm, ⟨61, _⟩ => ⟨S_, .f32⟩
  | .hbm, ⟨62, _⟩ => ⟨S128, .f32⟩
  | .hbm, ⟨63, _⟩ => ⟨S128, .f32⟩
  | .hbm, ⟨64, _⟩ => ⟨S1x128, .f32⟩
  | .hbm, ⟨65, _⟩ => ⟨S12000x128, .f32⟩
  | .hbm, ⟨66, _⟩ => ⟨S12000x128, .f32⟩
  | .hbm, ⟨67, _⟩ => ⟨S12000x128, .f32⟩
  | .hbm, ⟨68, _⟩ => ⟨S_, .f32⟩
  | .hbm, ⟨69, _⟩ => ⟨S128, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S1x128, .f32⟩
  | .hbm, ⟨74, _⟩ => ⟨S12000x128, .f32⟩
  | .hbm, ⟨75, _⟩ => ⟨S12000x128, .f32⟩
  | .hbm, ⟨76, _⟩ => ⟨S_, .f32⟩
  | .hbm, ⟨77, _⟩ => ⟨S128, .f32⟩
  | .hbm, ⟨78, _⟩ => ⟨S128, .f32⟩
  | .hbm, ⟨79, _⟩ => ⟨S128, .f32⟩
  | .hbm, ⟨80, _⟩ => ⟨S1x128, .f32⟩
  | .hbm, ⟨81, _⟩ => ⟨S12000x128, .f32⟩
  | .hbm, ⟨82, _⟩ => ⟨S12000x128, .f32⟩
  | .hbm, ⟨83, _⟩ => ⟨S1x128, .f32⟩
  | .hbm, ⟨84, _⟩ => ⟨S12000x128, .f32⟩
  | .hbm, ⟨85, _⟩ => ⟨S12000x128, .f32⟩
  | .hbm, ⟨86, _⟩ => ⟨S1x128, .f32⟩
  | .hbm, ⟨87, _⟩ => ⟨S12000x128, .f32⟩
  | .hbm, ⟨88, _⟩ => ⟨S12000x128, .f32⟩
  | .hbm, ⟨89, _⟩ => ⟨S_, .f32⟩
  | .hbm, ⟨90, _⟩ => ⟨S12000x128, .f32⟩
  | .hbm, ⟨91, _⟩ => ⟨S12000x128, .f32⟩
  | .hbm, ⟨92, _⟩ => ⟨S128x12000, .f32⟩
  | .hbm, ⟨93, _⟩ => ⟨S12000x12000, .f32⟩
  | _, _ => ⟨S12000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_call0_cst : Ref sig .tc := ⟨.hbm, 89, rfl⟩
abbrev main_call0_v0 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩

abbrev nD : Nat := 1
abbrev τ : Topo := Topo.v7x

variable {F : FTy → Type} [FloatOps F]

class Facts₀ : Prop where
  slices_S2x384000_S1x384000_0_0 : S2x384000.Slices ![0, 0] S1x384000
  shapeCasts_S1x384000_S384000 : S1x384000.ShapeCasts S384000
  concatenates_S384000_S12000_S396000_d0 : Shape.Concatenates [S384000, S12000] S396000 0
  slices_S2x384000_S1x384000_1_0 : S2x384000.Slices ![1, 0] S1x384000
  bcast_S_S396000 : S_.BroadcastsInDim S396000 (![] : Fin 0 → Fin S396000.rank)
  bcast_S_S12000 : S_.BroadcastsInDim S12000 (![] : Fin 0 → Fin S12000.rank)
  bcast_S396000_S396000x1_0 : S396000.BroadcastsInDim S396000x1 (![0] : Fin 1 → Fin S396000x1.rank)
  bcast_S396000x1_S396000x128_0_1 : S396000x1.BroadcastsInDim S396000x128 (![0, 1] : Fin 2 → Fin S396000x128.rank)
  bcast_S_S12000x128 : S_.BroadcastsInDim S12000x128 (![] : Fin 0 → Fin S12000x128.rank)
  bcast_S128_S1x128_1 : S128.BroadcastsInDim S1x128 (![1] : Fin 1 → Fin S1x128.rank)
  bcast_S1x128_S12000x128_0_1 : S1x128.BroadcastsInDim S12000x128 (![0, 1] : Fin 2 → Fin S12000x128.rank)
  reducesTo_S12000x128_S128_d0 : S12000x128.ReducesTo [0] S128
  h_S_ : 0 < S_.numel
  bcast_S_S128 : S_.BroadcastsInDim S128 (![] : Fin 0 → Fin S128.rank)
  transposes_S12000x128_S128x12000_1_0 : S12000x128.Transposes [1, 0] S128x12000
  scatter_S12000_S396000x1_S396000_n_0_0_1_wf : ScatterDims.WF S12000 S396000x1 S396000 [] [0] [0] 1
  gather_S12000_S396000x1_S396000_n_0_n_n_0_1_1_wf : GatherDims.WF S12000 S396000x1 S396000 [] [0] [] [0] [] 1 ![1]
  dot_S12000x256_S256x128_S12000x128_1_0_0_1_n_n_wf : DotDims.WF S12000x256 S256x128 S12000x128 [1] [0] [0] [1] [] []
  gather_S12000x128_S396000x1_S396000x128_1_0_n_n_0_1_1128_wf : GatherDims.WF S12000x128 S396000x1 S396000x128 [1] [0] [] [0] [] 1 ![1, 128]
  scatter_S12000x128_S396000x1_S396000x128_1_0_0_1_wf : ScatterDims.WF S12000x128 S396000x1 S396000x128 [1] [0] [0] 1
  dot_S12000x128_S128x12000_S12000x12000_1_0_0_1_n_n_wf : DotDims.WF S12000x128 S128x12000 S12000x12000 [1] [0] [0] [1] [] []

variable [Facts₀]

def scatter_S12000_S396000x1_S396000_n_0_0_1 : ScatterDims S12000 S396000x1 S396000 where
  updateWindowDims := []
  insertedWindowDims := [0]
  scatterDimsToOperandDims := [0]
  indexVectorDim := 1
  wf := scatter_S12000_S396000x1_S396000_n_0_0_1_wf
def gather_S12000_S396000x1_S396000_n_0_n_n_0_1_1 : GatherDims S12000 S396000x1 S396000 where
  offsetDims := []
  collapsedSliceDims := [0]
  operandBatchingDims := []
  startIndicesBatchingDims := []
  startIndexMap := [0]
  indexVectorDim := 1
  sliceSizes := ![1]
  wf := gather_S12000_S396000x1_S396000_n_0_n_n_0_1_1_wf
def dot_S12000x256_S256x128_S12000x128_1_0_0_1_n_n : DotDims S12000x256 S256x128 S12000x128 where
  lhsContracting := [1]
  rhsContracting := [0]
  lhsNonContracting := [0]
  rhsNonContracting := [1]
  lhsBatch := []
  rhsBatch := []
  wf := dot_S12000x256_S256x128_S12000x128_1_0_0_1_n_n_wf
def gather_S12000x128_S396000x1_S396000x128_1_0_n_n_0_1_1128 : GatherDims S12000x128 S396000x1 S396000x128 where
  offsetDims := [1]
  collapsedSliceDims := [0]
  operandBatchingDims := []
  startIndicesBatchingDims := []
  startIndexMap := [0]
  indexVectorDim := 1
  sliceSizes := ![1, 128]
  wf := gather_S12000x128_S396000x1_S396000x128_1_0_n_n_0_1_1128_wf
def scatter_S12000x128_S396000x1_S396000x128_1_0_0_1 : ScatterDims S12000x128 S396000x1 S396000x128 where
  updateWindowDims := [1]
  insertedWindowDims := [0]
  scatterDimsToOperandDims := [0]
  indexVectorDim := 1
  wf := scatter_S12000x128_S396000x1_S396000x128_1_0_0_1_wf
def dot_S12000x128_S128x12000_S12000x12000_1_0_0_1_n_n : DotDims S12000x128 S128x12000 S12000x12000 where
  lhsContracting := [1]
  rhsContracting := [0]
  lhsNonContracting := [0]
  rhsNonContracting := [1]
  lhsBatch := []
  rhsBatch := []
  wf := dot_S12000x128_S128x12000_S12000x12000_1_0_0_1_n_n_wf

class Facts : Prop extends Facts₀ where

variable [Facts]
-- ==== Proof.KSetup.lean ====
/-
  The idealized kernel program's objects that every later module speaks of, at any float family `F`.

  @main is: host lines (the graph convolution, the batch normalisation, the rectifier, the zero padding of the
  12000 rows to 12288 and the change of format), ONE kernel region, one host line (the slice back to 12000 x 12000).
  The region reads the padded activations `z` (12288 x 128) through TWO input windows on the SAME array: window 0 takes the
  row block `i` (1536 rows), window 1 the row block `j`; the output window 2 takes the block `(i, j)` of the 12288 x 12288
  result. At every grid point the body stores `blockᵢ · blockⱼᵀ` (a matrix product into a zero accumulator) over the whole
  output block. Both input windows only read the shared array, so each holds half of its share.
-/
import proofs.«114029_j20822001451042_1_alg».proof.Proof.Gen.Kernel.Launch
import proofs.«114029_j20822001451042_1_alg».proof.Proof.Gen.Kernel.Skeleton
import proofs.«114029_j20822001451042_1_alg».proof.Proof.Gen.Kernel.Points
import Idealize.ShloMosaic.Lib.Pipeline.FrameBody
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The host lines before the region, stretch by stretch (the rectifier and the padding are called functions, each a
    stretch of its own). -/
abbrev prefixOps : List (List (HloOp τ sig (Elt F))) := [hostOps0, hostOps0_1, hostOps0_2, hostOps0_3, hostOps0_4]

/-- Core `c`'s buffer contents when the region is entered: the launch memory after the host lines before the region. -/
abbrev V0 (c : Dev nD) : Valuation τ sig (Elt F) := StableHlo.after (List.flatten (prefixOps (F := F))) (fun b => m (c, b))
/-- The same read at a TensorCore reference. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole output block, as a rectangle. -/
abbrev rOut : Rect S1536x1536 := Rect.unit (s := S1536x1536) ![0, 0] S1536x1536.size inb_S1536x1536_S1536x1536_0_0

/-- What the body leaves in the output window's buffer, from the two row blocks it loaded: its one store, over the whole
    block, of their product. -/
def mm (x0 x1 : Vec F S1536x128 .bf16) : Vec F S1536x1536 .f32 :=
  View.canon [⟨rOut, k0_pay1 x0 x1⟩]

/-- The pipeline's proof data on core `c`: the arrays as the region finds them; after the body at point `t` each input buffer
    still at its block and the output buffer at the product of the two blocks; the invariant the scoped buffers no window
    stages (there is none); nothing owed; the shared input array held half by each of the two windows that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => mm (iblk m c 0 t) (iblk m c 1 t)
  Φ _ := Pipeline.scopedRest spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = mm (iblk m c 0 t) (iblk m c 1 t) := by dsimp only [dats]

/-- The buffers' contents when the region is left: the result array at what the write-backs of all 64 points made of
    it, every other buffer as the region found it. -/
def W1 (c : Dev nD) : Valuation τ sig (Elt F) :=
  Function.update (V0 m c) (Proc.devRef .tc main_v72) ((dats m 0 c).arrAt 2 cfg0.N)

/-- And at the end of @main: after the slice that follows the region. -/
def Wfin (c : Dev nD) : Valuation τ sig (Elt F) := StableHlo.after (List.flatten [hostOps1 (F := F)]) (W1 m c)

end Cert.Kernel.Hand

end
-- ==== Proof.KBody.lean ====
/-
  The body obligation of the one kernel region, at any float family `F`.

  At grid point `t = (i, j)` the body finds row block `i` of the padded activations in window 0's buffer and row block `j`
  of the same array in window 1's buffer, whether or not either was moved in at that point: an input block that was not
  moved in has the block index of the point before, and the body leaves both input buffers as it found them. It reads the
  output buffer (the value read is dropped) and then writes the product of the two blocks over the whole of it, so the
  output buffer ends at that product whatever it held before.
-/
import proofs.«114029_j20822001451042_1_alg».proof.Proof.KSetup
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the body finds in the two input buffers -/

/-- Window 0's buffer holds row block `i` at every point, moved in there or not: where it was not moved in (`j ≠ 0`)
    the block index is the one of the point before, and the body leaves the block in place. -/
theorem before_rowBlock (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

/-- Window 1's buffer holds row block `j` at every point (it is moved in at each). -/
theorem before_colBlock (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)

/-! ## The one store covers the output block -/

/-- The store's rectangle is the whole 1536 x 1536 block, so every index of the block lies in it. -/
theorem cover_out (p0 : Vec F S1536x1536 .f32) (y : S1536x1536.Idx) :
    ∃ pc ∈ ([⟨rOut, p0⟩] : List (View.Piece (Elt F) S1536x1536 .f32)), y ∈ pc.1.set :=
  View.cover_of_tiled [⟨rOut, p0⟩] S1536x1536.size (by rfl) y

/-! ## What the two loads read -/

/-- A load of the whole 1536 x 128 block, at unit strides from the origin, reads the block itself: the rectangle places
    index `x` at `0 + 1 * x` on both axes. -/
theorem ld_wholeIn (X : Vec F S1536x128 .bf16) :
    View.ld (Val := Elt F) X (Rect.unit (s := S1536x128) ![0, 0] S1536x128.size inb_S1536x128_S1536x128_0_0) = X := by
  funext x
  show X _ = X x
  congr 1
  funext a
  apply Fin.ext
  rw [LoadRect.idx_apply]
  fin_cases a <;> simp

/-! ## The body's triple -/

set_option maxHeartbeats 1000000 in
/-- The body on whole buffers — the two inputs at read contents `x0`, `x1`, the output at anything — runs to the
    continuation with the inputs as they were and the output at the product `mm x0 x1`: two loads, a third load of the
    output whose value is dropped, and one store over the whole block. -/
theorem sound_kernel (c : Dev nD) (E : Set ℕ) (i : grid0.Coords)
    (arg2 : Memref sig .tc .vmem S1536x128 .bf16) (harg2 : arg2.IsWhole)
    (arg3 : Memref sig .tc .vmem S1536x128 .bf16) (harg3 : arg3.IsWhole)
    (arg4 : Memref sig .tc .vmem S1536x1536 .f32) (harg4 : arg4.IsWhole)
    (x0 x1 : Vec F S1536x128 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (mm x0 x1)) -∗ K ⟨⟩))
      ⊢ wp frame (wpE (defs₀ (F := F)) Variants.none c none) E (cc0__decode_kernel i arg2 harg2 arg3 harg3 arg4 harg4) K := by
  simp only [cc0__decode_kernel_eq_skeleton]; unfold cc0__decode_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- the store covers the block, so the buffer reads as the store's payload; each load read its whole block
  unfold mm
  rw [View.read_writes_eq_canon _ _ _ (cover_out _), View.readAt_eq_ld, View.readAt_eq_ld, ld_wholeIn, ld_wholeIn]

/-! ## The body obligation, at a generic point -/

/-- What the body is called with at point `t`: the invariant, what is owed, and the three current buffers, each input at
    what it holds before the body and the output at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- And what it returns: the same invariant and debt, each buffer at what the body leaves in it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input buffers hold the two row blocks, so the body's triple applies; the invariant and
    the debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rowBlock, before_colBlock]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.LibSharedLaunch.lean ====
/-
  A launch theorem for a TensorCore program of the shape

      host lines;  one kernel region;  host lines

  whose region may hand ONE array to SEVERAL input windows (the windows' arrays need not be distinct buffers).

  The library's frame run around a region (Lib/Pipeline/FrameSuffix.lean) asks for pairwise distinct arrays, because it
  deals each array whole to its one window. Here the certificate says instead how the distinct buffers behind the
  arrays, each held whole, are dealt among the windows as the proof data's `arrays` (`hdeal`: an array that two input
  windows read is split in two shares) and how the windows' holdings are collected back into those buffers (`hjoin`).
  With that, the region is entered from the buffers as the earlier host lines left them, and at its exit the
  buffers are collected again, so that the later host lines run over ALL the unscoped buffers at one valuation `W₁`
  (the arrays at what the pipeline library computes, every other buffer as the region found it). The conclusion reads
  every unscoped buffer at the end of @main: the later lines' result from `W₁`.
-/
import Idealize.ShloMosaic.Lib.Pipeline.FrameSuffix

noncomputable section

namespace Idealize.ShloMosaic

open Idealize.SL
open Idealize.SL.BI (sProp bigSep bigSep_map bigSep_union bigSep_congr bigSep_sdiff_split)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}

namespace Pipeline

open Idealize.ShloMosaic.Rounds

section SharedAround

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀) (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The unscoped buffers of a core at a valuation are the distinct buffers behind the windows' arrays and the rest, whether
    or not two windows name one array. -/
theorem unscopedBufs_arrBufs {gr : Nat} {W : Nat} (win : Fin W → WinSpec sig gr) (hun : ∀ w, (arrRef win w).isScoped = false)
    (c : Dev nD) (V : (b : Ref sig .tc) → Buf Val ((c.tc : Thread nD τ).loc b)) :
    (unscopedBufs (Ix := Unit) (Name := ℕ) (U := UR sig nD τ) (Lvl := ℕ) c V : sProp 𝕄)
      = iprop((arrBufs win c V : sProp 𝕄) ∗ unscopedRest win c V) := by
  classical
  have hA : Finset.univ.image (arrRef win) ⊆ Finset.univ.filter fun b : Ref sig .tc => ¬ b.isScoped := fun b hb => by
    obtain ⟨w, -, rfl⟩ := Finset.mem_image.mp hb
    exact Finset.mem_filter.mpr ⟨Finset.mem_univ _, by simp [hun w]⟩
  unfold unscopedBufs unscopedRest arrBufs
  rw [bigSep_sdiff_split hA]
  rfl

/-- THE RUN of `host lines; region; host lines` for a region whose input windows may share an array. The proof data's
    arrays at entry are dealt from the buffers behind them as the earlier lines left them (`hdeal` at `V₀`, `hA`); at the
    exit they are collected into those buffers at `W₁` (`hjoin`, `hW₁arr`), which elsewhere is `V₀` (`hW₁rest`); the later
    lines `opss` run over every unscoped buffer and write no array (`hkeep`). Every unscoped buffer ends at the later lines'
    result from `W₁`. The kernel uses no semaphore of its own and its invariant is the scoped buffers no window stages. -/
theorem θ_run_shared_around
    (hinj : Function.Injective (cellOf (nD := nD) (τ := τ) cfgs))
    (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ W₁ : Dev nD → Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hΦ0 : ∀ c, (scopedRest (cfg).spec c : sProp 𝕄) ⊢ (dats p c).Φ 0)
    (hΦN : ∀ c, (dats p c).Φ (Fin.last (cfg).N) ⊢ (scopedRest (cfg).spec c : sProp 𝕄))
    (hdeal : ∀ c (W : Valuation τ sig Val) (F : (w : Fin (cfg).W) → Buf Val (((cfg).spec w).arr.view.loc (c.tc : Thread nD τ))),
      (∀ w, F w = W (Proc.devRef .tc (arrRef (cfg).spec w))) →
      ((arrBufs (cfg).spec c (fun b => W (Proc.devRef .tc b)) : sProp 𝕄) ⊢ (dats p c).arrays F))
    (hjoin : ∀ c (W : Valuation τ sig Val) (F : (w : Fin (cfg).W) → Buf Val (((cfg).spec w).arr.view.loc (c.tc : Thread nD τ))),
      (∀ w, F w = W (Proc.devRef .tc (arrRef (cfg).spec w))) →
      ((dats p c).arrays F ⊢ (arrBufs (cfg).spec c (fun b => W (Proc.devRef .tc b)) : sProp 𝕄)))
    (hA : ∀ c w, (dats p c).arrAt w 0 = V₀ c (Proc.devRef .tc (arrRef (cfg).spec w)))
    (hW₁arr : ∀ c w, (dats p c).arrAt w (cfg).N = W₁ c (Proc.devRef .tc (arrRef (cfg).spec w)))
    (hW₁rest : ∀ c (b : Ref sig .tc), (∀ w, arrRef (cfg).spec w ≠ b) → W₁ c (Proc.devRef .tc b) = V₀ c (Proc.devRef .tc b)) :
    θ_run 𝔻 (onTc main) (s₀ m g) (fun r => ∀ (c : Dev nD) (b : Ref sig .tc), b.isScoped = false →
      r.2.mem ((c.tc : Thread nD τ).loc b) = StableHlo.after opss.flatten (W₁ c) (Proc.devRef .tc b)) := by
  classical
  -- the later lines write no array: an array's buffer holds after them what it held at the region's exit
  have hafterArr : ∀ c w, StableHlo.after opss.flatten (W₁ c) (Proc.devRef .tc (arrRef (cfg).spec w)) = W₁ c (Proc.devRef .tc (arrRef (cfg).spec w)) :=
    fun c w => StableHlo.after_of_forall_not_mem _ _ fun op hop => by
      obtain ⟨ops, hops, hop⟩ := List.mem_flatten.mp hop
      exact hkeep ops hops op hop w
  -- a buffer that is no window's array held the same at the exit as at the entry
  have hrestEq : ∀ c, (unscopedRest (cfg).spec c (fun b => V₀ c (Proc.devRef .tc b)) : sProp 𝕄)
      = unscopedRest (cfg).spec c (fun b => W₁ c (Proc.devRef .tc b)) := fun c => by
    unfold unscopedRest
    exact bigSep_congr fun b hb => by
      dsimp only
      rw [hW₁rest c b fun w e => (Finset.mem_sdiff.mp hb).2 (Finset.mem_image.mpr ⟨w, Finset.mem_univ _, e⟩)]
  refine Pipeline.θ_run_region_noSem_pf_tail (fun q => (cfgs q).toPCfg) (fun q => (cfgs q).toPCfg_adm) dats () hinj p hw (PreFacts.none _) emb₁ defs₀ 𝒱₀ m g main
    (fun _ => chain (opss.map StableHlo.seq)) hbody hne harr hstage howed
    (u₀ := initOf (cells cfgs hinj) (launchToks cfgs hinj)) (hu₀ := .rfl)
    (V := fun c b => V₀ c (Proc.devRef .tc b)) (hmain := hmain)
    (hsplit := fun c => hdeal c (V₀ c) _ (hA c))
    (hpf := fun _ k => k.elim0)
    (X := fun _ => iprop(emp)) (Y := fun _ => iprop(emp))
    (Z := fun c => unscopedRest (cfg).spec c (fun b => V₀ c (Proc.devRef .tc b)))
    (Z' := fun c => unscopedRest (cfg).spec c (fun b => StableHlo.after opss.flatten (W₁ c) (Proc.devRef .tc b)))
    (hX := fun c => by
      rw [unscopedRestP_none]
      iintro H
      isplitr
      · iempintro
      · iexact H)
    (hin := fun c => (show _ ⊢ (scopedRest (cfg).spec c : sProp 𝕄) from by iintro ⟨-, -, HR⟩; iexact HR).trans (hΦ0 c))
    (hout := fun c => (hΦN c).trans (by
      iintro H
      isplitr
      · iempintro
      · iexact H))
    (htail := fun c Q' => ?_)
    (QY := fun c s => ∀ b ∈ restRefs sig (cfg).spec, s.mem ((c.tc : Thread nD τ).loc b) = StableHlo.after opss.flatten (W₁ c) (Proc.devRef .tc b))
    (hY := fun c s' => by
      iintro ⟨-, HU, HSI⟩
      unfold unscopedRest
      imodintro
      iapply (pointsTo_read_all (restRefs sig (cfg).spec) (fun b => (c.tc : Thread nD τ).loc b)
        (fun b => StableHlo.after opss.flatten (W₁ c) (Proc.devRef .tc b)) s')
      isplitl [HU] <;> iassumption)
    (hQ := fun s h c b hb => ?_)
  · -- the later lines, from the region's exit
    rw [hrestEq c]
    have hcollect : iprop((dats p c).arrays ((dats p c).arrAt · (cfg).N) ∗ (unscopedRest (cfg).spec c (fun b => W₁ c (Proc.devRef .tc b)) : sProp 𝕄))
        ⊢ (StableHlo.held (c.tc : Thread nD τ) (ucRefs τ sig) (W₁ c) : sProp 𝕄) := by
      rw [← unscopedBufs_held (Ix := Unit) (Name := ℕ) (U := UR sig nD τ) (Lvl := ℕ) c (W₁ c),
        unscopedBufs_arrBufs (cfg).spec hw.arr_unscoped c]
      iintro ⟨HA, HR⟩
      isplitl [HA]
      · iapply (hjoin c (W₁ c) _ (hW₁arr c)); iexact HA
      · iexact HR
    have hdealBack : (StableHlo.held (c.tc : Thread nD τ) (ucRefs τ sig) (StableHlo.after opss.flatten (W₁ c)) : sProp 𝕄)
        ⊢ iprop((dats p c).arrays ((dats p c).arrAt · (cfg).N)
            ∗ (unscopedRest (cfg).spec c (fun b => StableHlo.after opss.flatten (W₁ c) (Proc.devRef .tc b)) : sProp 𝕄)) := by
      rw [← unscopedBufs_held (Ix := Unit) (Name := ℕ) (U := UR sig nD τ) (Lvl := ℕ) c (StableHlo.after opss.flatten (W₁ c)),
        unscopedBufs_arrBufs (cfg).spec hw.arr_unscoped c]
      iintro ⟨HA, HR⟩
      isplitl [HA]
      · iapply (hdeal c (StableHlo.after opss.flatten (W₁ c)) _ (fun w => (hW₁arr c w).trans (hafterArr c w).symm)); iexact HA
      · iexact HR
    iintro ⟨Hk, Hb, HA, HZ⟩
    ihave Hheld := hcollect $$ [HA HZ]
    · isplitl [HA] <;> iassumption
    rw [← List.append_nil (opss.map StableHlo.seq)]
    iapply (wp_seqs_then (fun q => (cfgs q).toPCfg (Val := Val)) defs₀ 𝒱₀ c (ucRefs τ sig) [] opss
      (fun ops ho op h => sub_ucRefs op (hsub ops ho op h)) hfresh (W₁ c)) $$ [Hb Hheld]
    · isplitl [Hb] <;> iassumption
    iintro ⟨-, Hheld⟩
    rw [chain_nil, wp_pure]
    imodintro
    iapply Hk
    iapply hdealBack; iexact Hheld
  · -- every unscoped buffer at the end: an array by the library's reading of it, the rest by `QY`
    by_cases hex : ∃ w, arrRef (cfg).spec w = b
    · obtain ⟨w, rfl⟩ := hex
      exact ((h c).1 w).trans ((hW₁arr c w).trans (hafterArr c w).symm)
    · exact (h c).2.2 b (mem_restRefs_of b hb fun w e => hex ⟨w, e⟩)

end SharedAround

end Pipeline

end Idealize.ShloMosaic

end
-- ==== Proof.KDeal.lean ====
/-
  The shared input array, dealt and collected.

  The region's two input windows read ONE array (the padded activations); the output window writes another. Of the
  two distinct buffers behind the three windows, the activations' is split into its two half shares, one for each
  reading window, and the result's goes whole to the output window; collecting is the same equation read backwards.
  Also here: @main as host lines, the region, one host line.
-/
import proofs.«114029_j20822001451042_1_alg».proof.Proof.KSetup
import proofs.«114029_j20822001451042_1_alg».proof.Proof.LibSharedLaunch

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The distinct buffers behind the three windows are two: the padded activations and the result. -/
theorem arrRefs_eq : Finset.univ.image (Pipeline.arrRef spec0) = {main_v71, main_v72} := by decide

theorem share0 (c : Dev nD) : (dats m 0 c).share 0 = fullShare.left := rfl
theorem share1 (c : Dev nD) : (dats m 0 c).share 1 = fullShare.right := rfl
theorem share2 (c : Dev nD) : (dats m 0 c).share 2 = fullShare := rfl

set_option maxHeartbeats 1000000 in
/-- The two buffers, each whole, ARE the three windows' holdings at the same contents: the activations' buffer is its
    left half share (window 0) beside its right half share (window 1). -/
theorem arrays_iff (c : Dev nD) (W : Valuation τ sig (Elt F)) :
    (Pipeline.arrBufs spec0 c (fun b => W (Proc.devRef .tc b)) : sProp 𝕄)
      ⊣⊢ (dats m 0 c).arrays (fun w => W (Proc.devRef .tc (Pipeline.arrRef spec0 w))) := by
  unfold Pipeline.arrBufs Dat.arrays
  rw [arrRefs_eq, bigSep_W0, share0, share1, share2, (arr_whole0 0).set_eq_univ, (arr_whole0 2).set_eq_univ,
    bigSep_insert (by decide : main_v71 ∉ ({main_v72} : Finset (Ref sig .tc))), bigSep_singleton]
  show iprop((((c.tc : Thread nD τ).loc main_v71) ↦{fullShare} W (Proc.devRef .tc main_v71))
      ∗ (((c.tc : Thread nD τ).loc main_v72) ↦{fullShare} W (Proc.devRef .tc main_v72)))
    ⊣⊢ iprop((((c.tc : Thread nD τ).loc main_v71) ↦{fullShare.left} W (Proc.devRef .tc main_v71))
      ∗ (((c.tc : Thread nD τ).loc main_v71) ↦{fullShare.right} W (Proc.devRef .tc main_v71))
      ∗ (((c.tc : Thread nD τ).loc main_v72) ↦{fullShare} W (Proc.devRef .tc main_v72)))
  constructor
  · iintro ⟨H1, H2⟩
    ihave H := (pointsTo_share (PosShare.mem_left_op_right fullShare)).1 $$ H1
    icases H with ⟨Ha, Hb⟩
    isplitl [Ha]
    · iexact Ha
    isplitl [Hb]
    · iexact Hb
    · iexact H2
  · iintro ⟨Ha, Hb, H2⟩
    isplitr [H2]
    · iapply (pointsTo_share (PosShare.mem_left_op_right fullShare)).2
      isplitl [Ha]
      · iexact Ha
      · iexact Hb
    · iexact H2

/-- Dealing: from the two buffers to the three windows' holdings, at any contents the windows read off a valuation. -/
theorem deal (c : Dev nD) (W : Valuation τ sig (Elt F))
    (G : (w : Fin cfg0.W) → Buf (Elt F) ((cfg0.spec w).arr.view.loc (c.tc : Thread nD τ)))
    (hG : ∀ w, G w = W (Proc.devRef .tc (Pipeline.arrRef cfg0.spec w))) :
    (Pipeline.arrBufs cfg0.spec c (fun b => W (Proc.devRef .tc b)) : sProp 𝕄) ⊢ (dats m 0 c).arrays G := by
  obtain rfl : G = fun w => W (Proc.devRef .tc (Pipeline.arrRef cfg0.spec w)) := funext hG
  exact (arrays_iff m c W).1

/-- Collecting: the same equation read backwards. -/
theorem join (c : Dev nD) (W : Valuation τ sig (Elt F))
    (G : (w : Fin cfg0.W) → Buf (Elt F) ((cfg0.spec w).arr.view.loc (c.tc : Thread nD τ)))
    (hG : ∀ w, G w = W (Proc.devRef .tc (Pipeline.arrRef cfg0.spec w))) :
    (dats m 0 c).arrays G ⊢ (Pipeline.arrBufs cfg0.spec c (fun b => W (Proc.devRef .tc b)) : sProp 𝕄) := by
  obtain rfl : G = fun w => W (Proc.devRef .tc (Pipeline.arrRef cfg0.spec w)) := funext hG
  exact (arrays_iff m c W).2

/-! ## @main around the region -/

set_option maxHeartbeats 4000000 in
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the slice after it: it reduces to the region continued by
    the slice, the buffers at what the earlier lines left. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main prefixOps [hostOps1]
    (And.intro hostOps0_sub (And.intro hostOps0_1_sub (And.intro hostOps0_2_sub (And.intro hostOps0_3_sub hostOps0_4_sub))))
    (And.intro hostOps0_fresh (And.intro hostOps0_1_fresh (And.intro hostOps0_2_fresh (And.intro hostOps0_3_fresh hostOps0_4_fresh))))
    main_chain

/-- The slice after the region names TensorCore buffers only, -/
theorem tail_sub : ∀ ops ∈ ([hostOps1] : List (List (HloOp τ sig (Elt F)))), ∀ op ∈ ops, op.bufs ⊆ StableHlo.tcRefs τ sig := by
  intro ops hops op hop
  simp only [List.mem_cons, List.mem_nil_iff, or_false] at hops
  rcases hops with rfl
  exact (List.forall_iff_forall_mem.mp hostOps1_sub) op hop
/-- allocates nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and writes neither the activations nor the padded result (it writes the 12000 x 12000 result only). -/
theorem tail_keeps : ∀ ops ∈ ([hostOps1] : List (List (HloOp τ sig (Elt F)))), ∀ op ∈ ops,
    ∀ w, Proc.devRef .tc (Pipeline.arrRef cfg0.spec w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.unary_writes, Finset.mem_singleton] <;> exact StableHlo.devRef_ne_of_ne (by decide)

/-! ## The buffers at the region's exit -/

theorem W1_v72 (c : Dev nD) : W1 m c (Proc.devRef .tc main_v72) = (dats m 0 c).arrAt 2 cfg0.N := by
  unfold W1; exact Function.update_self _ _ _

theorem W1_of_ne (c : Dev nD) (b : Ref sig .tc) (hb : b ≠ main_v72) : W1 m c (Proc.devRef .tc b) = V0 m c (Proc.devRef .tc b) := by
  unfold W1; exact Function.update_of_ne (StableHlo.devRef_ne_of_ne hb) _ _

/-- Each window's array at the exit is what the exit valuation holds behind it: an input array is as the region found
    it, the output array is the pipeline's result. -/
theorem W1_arr (c : Dev nD) (w : Fin cfg0.W) : (dats m 0 c).arrAt w cfg0.N = W1 m c (Proc.devRef .tc (Pipeline.arrRef cfg0.spec w)) := by
  match w with
  | ⟨0, _⟩ => exact ((dats m 0 c).arrAt_in 0 rfl _).trans ((A_eq m c 0).trans (W1_of_ne m c main_v71 (by decide)).symm)
  | ⟨1, _⟩ => exact ((dats m 0 c).arrAt_in 1 rfl _).trans ((A_eq m c 1).trans (W1_of_ne m c main_v71 (by decide)).symm)
  | ⟨2, _⟩ => exact (W1_v72 m c).symm

theorem W1_rest (c : Dev nD) (b : Ref sig .tc) (hb : ∀ w, Pipeline.arrRef cfg0.spec w ≠ b) :
    W1 m c (Proc.devRef .tc b) = V0 m c (Proc.devRef .tc b) :=
  W1_of_ne m c b fun e => hb 2 (e ▸ rfl)

theorem A0_eq (c : Dev nD) (w : Fin cfg0.W) : (dats m 0 c).arrAt w 0 = V0 m c (Proc.devRef .tc (Pipeline.arrRef cfg0.spec w)) :=
  A_eq m c w

end Cert.Kernel.Hand

end
-- ==== Proof.KPrefix.lean ====
/-
  What the host lines before the region leave in the buffers the later modules read, at any float family.

  No host line writes an argument of @main, so the region finds the six arguments as launched. The array both input
  windows read is written by the last host line: it holds the rectified, normalised graph convolution of the arguments
  (the same composed term the reference program computes for its activations), extended by 288 rows of the integer zero
  converted to float, and changed to the 16-bit format.
-/
import proofs.«114029_j20822001451042_1_alg».proof.Proof.KSetup
import proofs.«114029_j20822001451042_1_alg».proof.Proof.Gen.ReferenceIdeal.Read
import Idealize.ShloMosaic.Lib.StableHlo.Run

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable {F : FTy → Type} [FloatOps F]

variable (m : (ℓ : Loc nD τ sig) → Buf (Elt F) ℓ)

set_option maxHeartbeats 1000000 in
/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [prefixOps, hostOps0, hostOps0_1, hostOps0_2, hostOps0_3, hostOps0_4, List.flatten_cons, List.flatten_nil,
      List.append_nil, List.cons_append, List.nil_append, List.Forall, StableHlo.nullary_writes, StableHlo.unary_writes,
      StableHlo.binary_writes, StableHlo.ternary_writes, StableHlo.reshape_writes, Finset.mem_singleton]
    repeat' apply And.intro
    all_goals exact StableHlo.devRef_ne_of_ne (by decide)))

set_option maxHeartbeats 1000000 in
/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [prefixOps, hostOps0, hostOps0_1, hostOps0_2, hostOps0_3, hostOps0_4, List.flatten_cons, List.flatten_nil,
      List.append_nil, List.cons_append, List.nil_append, List.Forall, StableHlo.nullary_writes, StableHlo.unary_writes,
      StableHlo.binary_writes, StableHlo.ternary_writes, StableHlo.reshape_writes, Finset.mem_singleton]
    repeat' apply And.intro
    all_goals exact StableHlo.devRef_ne_of_ne (by decide)))

set_option maxHeartbeats 1000000 in
/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [prefixOps, hostOps0, hostOps0_1, hostOps0_2, hostOps0_3, hostOps0_4, List.flatten_cons, List.flatten_nil,
      List.append_nil, List.cons_append, List.nil_append, List.Forall, StableHlo.nullary_writes, StableHlo.unary_writes,
      StableHlo.binary_writes, StableHlo.ternary_writes, StableHlo.reshape_writes, Finset.mem_singleton]
    repeat' apply And.intro
    all_goals exact StableHlo.devRef_ne_of_ne (by decide)))

set_option maxHeartbeats 1000000 in
/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [prefixOps, hostOps0, hostOps0_1, hostOps0_2, hostOps0_3, hostOps0_4, List.flatten_cons, List.flatten_nil,
      List.append_nil, List.cons_append, List.nil_append, List.Forall, StableHlo.nullary_writes, StableHlo.unary_writes,
      StableHlo.binary_writes, StableHlo.ternary_writes, StableHlo.reshape_writes, Finset.mem_singleton]
    repeat' apply And.intro
    all_goals exact StableHlo.devRef_ne_of_ne (by decide)))

set_option maxHeartbeats 1000000 in
/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [prefixOps, hostOps0, hostOps0_1, hostOps0_2, hostOps0_3, hostOps0_4, List.flatten_cons, List.flatten_nil,
      List.append_nil, List.cons_append, List.nil_append, List.Forall, StableHlo.nullary_writes, StableHlo.unary_writes,
      StableHlo.binary_writes, StableHlo.ternary_writes, StableHlo.reshape_writes, Finset.mem_singleton]
    repeat' apply And.intro
    all_goals exact StableHlo.devRef_ne_of_ne (by decide)))

set_option maxHeartbeats 1000000 in
/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [prefixOps, hostOps0, hostOps0_1, hostOps0_2, hostOps0_3, hostOps0_4, List.flatten_cons, List.flatten_nil,
      List.append_nil, List.cons_append, List.nil_append, List.Forall, StableHlo.nullary_writes, StableHlo.unary_writes,
      StableHlo.binary_writes, StableHlo.ternary_writes, StableHlo.reshape_writes, Finset.mem_singleton]
    repeat' apply And.intro
    all_goals exact StableHlo.devRef_ne_of_ne (by decide)))

set_option maxHeartbeats 40000000 in
/-- The array both input windows read, as the region finds it: the reference's activations (the rectified, normalised
    graph convolution of the six arguments), extended below by 288 rows of the integer zero converted to float, then
    changed to the 16-bit format. The host lines up to the rectifier are, one by one, the lines by which the reference
    computes its activations; the zero constant, its conversion, the padding and the change of format are the four
    lines after them. Reading the last line's result back through the lines before it gives one composed term of the
    arguments, and the reference's stage is the same term folded into named stages. -/
theorem V_v71 (c : Dev nD) : V (F := F) m c main_v71
    = truncf .bf16 (pad S12288x128 ![0, 0] ![288, 0] ![0, 0]
        (Cert.ReferenceIdeal.Read.val_main_v69 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
        (sitofp .f32 (constantI S_ 32 0#32)) pads_S12000x128_S12288x128_02880_000 h_S_) bitsLt_bf16_f32 := by
  dsimp only [V, V0]
  simp only [prefixOps, hostOps0, hostOps0_1, hostOps0_2, hostOps0_3, hostOps0_4, List.flatten_cons, List.flatten_nil,
    List.append_nil, List.cons_append, List.nil_append]
  after_results_simp
  rfl

end Cert.Kernel.Hand

end
-- ==== Proof.KRun.lean ====
/-
  The run of the idealized kernel program, and what every buffer holds at its end.

  Every weakly fair execution of @main terminates without a fault, and at the end every unscoped buffer holds what the
  slice after the region makes of the buffers at the region's exit: the padded result at the pipeline's 64 written
  blocks, every other buffer as the host lines before the region left it. From that: the argument arrays end as they
  were launched (no line writes them, and they are no window's array), and the returned array is the leading
  12000 x 12000 corner of the padded result.
-/
import proofs.«114029_j20822001451042_1_alg».proof.Proof.KSetup
import proofs.«114029_j20822001451042_1_alg».proof.Proof.KBody
import proofs.«114029_j20822001451042_1_alg».proof.Proof.KDeal
import proofs.«114029_j20822001451042_1_alg».proof.Proof.KPrefix
import proofs.«114029_j20822001451042_1_alg».proof.Proof.LibSharedLaunch
import Idealize.ShloMosaic.Lib.StableHlo.Run

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

-- the launch theorem's implicit arguments are found by unifying its conclusion with this one, which unfolds plain
-- definitions in a metavariable's type
set_option backward.isDefEq.respectTransparency.types false in
/-- THE RUN: at the end of @main every unscoped buffer holds `Wfin`. -/
theorem run_main : θ_run defs (onTc (τ := τ) (main (F := F))) ⟨m, fun _ => 0, ρ⟩
    (fun r => ∀ (c : Dev nD) (b : Ref sig .tc), b.isScoped = false →
      r.2.mem ((c.tc : Thread nD τ).loc b) = Wfin m c (Proc.devRef .tc b)) :=
  Pipeline.θ_run_shared_around cfgs (dats m) (0 : Fin 1) defs₀ Variants.none cellOf_inj winFacts₀0 block_pos0 arr_whole0 stage_whole0 m ρ main
    (hbody := fun c => (body_obligation m c).loose) (howed := fun _ _ => rfl) (V₀ := V0 m) (W₁ := W1 m) (opss := [hostOps1])
    (hsub := tail_sub) (hfresh := tail_fresh) (hkeep := tail_keeps) (hmain := hmain m Variants.none)
    (hΦ0 := fun _ => .rfl) (hΦN := fun _ => .rfl) (hdeal := deal m) (hjoin := join m)
    (hA := A0_eq m) (hW₁arr := W1_arr m) (hW₁rest := W1_rest m)

/-- The slice writes no argument array, and the region's exit holds each as its entry did: it ends as launched. -/
theorem Wfin_of_kept (c : Dev nD) (b : Ref sig .tc) (hb72 : b ≠ main_v72) (hb73 : b ≠ main_v73) :
    Wfin m c (Proc.devRef .tc b) = V0 m c (Proc.devRef .tc b) := by
  unfold Wfin
  rw [StableHlo.after_of_forall_not_mem (b := Proc.devRef .tc b) _ _ (List.forall_iff_forall_mem.mp (by
      simp only [hostOps1, List.flatten_cons, List.flatten_nil, List.append_nil, List.Forall, StableHlo.unary_writes, Finset.mem_singleton]
      exact StableHlo.devRef_ne_of_ne hb73)),
    W1_of_ne m c b hb72]

/-- The returned array: the leading 12000 x 12000 corner of the padded result as the pipeline's write-backs left it. -/
theorem Wfin_v73 (c : Dev nD) : Wfin m c (Proc.devRef .tc main_v73)
    = extractStridedSlice S12000x12000 ![0, 0] ((dats m 0 c).arrAt 2 cfg0.N) slices_S12288x12288_S12000x12000_0_0 := by
  unfold Wfin
  simp only [hostOps1, List.flatten_cons, List.flatten_nil, List.append_nil]
  after_results
  rw [W1_v72]

/-- THE FRAME: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c main_arg0 rfl).trans ((Wfin_of_kept m c main_arg0 (by decide) (by decide)).trans (V_main_arg0 m c)),
     (h c main_arg1 rfl).trans ((Wfin_of_kept m c main_arg1 (by decide) (by decide)).trans (V_main_arg1 m c)),
     (h c main_arg2 rfl).trans ((Wfin_of_kept m c main_arg2 (by decide) (by decide)).trans (V_main_arg2 m c)),
     (h c main_arg3 rfl).trans ((Wfin_of_kept m c main_arg3 (by decide) (by decide)).trans (V_main_arg3 m c)),
     (h c main_arg4 rfl).trans ((Wfin_of_kept m c main_arg4 (by decide) (by decide)).trans (V_main_arg4 m c)),
     (h c main_arg5 rfl).trans ((Wfin_of_kept m c main_arg5 (by decide) (by decide)).trans (V_main_arg5 m c))⟩)
    (run_main m ρ)

/-- THE RESULT beside the frame: the returned array ends at the corner of the padded result. -/
theorem run_result : θ_run defs (onTc (τ := τ) (main (F := F))) ⟨m, fun _ => 0, ρ⟩ (fun r => ∀ c : Dev nD,
      r.2.mem ((c.tc : Thread nD τ).loc main_v73)
        = extractStridedSlice S12000x12000 ![0, 0] ((dats m 0 c).arrAt 2 cfg0.N) slices_S12288x12288_S12000x12000_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c main_v73 rfl).trans (Wfin_v73 m c),
     (h c main_arg0 rfl).trans ((Wfin_of_kept m c main_arg0 (by decide) (by decide)).trans (V_main_arg0 m c)),
     (h c main_arg1 rfl).trans ((Wfin_of_kept m c main_arg1 (by decide) (by decide)).trans (V_main_arg1 m c)),
     (h c main_arg2 rfl).trans ((Wfin_of_kept m c main_arg2 (by decide) (by decide)).trans (V_main_arg2 m c)),
     (h c main_arg3 rfl).trans ((Wfin_of_kept m c main_arg3 (by decide) (by decide)).trans (V_main_arg3 m c)),
     (h c main_arg4 rfl).trans ((Wfin_of_kept m c main_arg4 (by decide) (by decide)).trans (V_main_arg4 m c)),
     (h c main_arg5 rfl).trans ((Wfin_of_kept m c main_arg5 (by decide) (by decide)).trans (V_main_arg5 m c))⟩)
    (run_main m ρ)

end Cert.Kernel.Hand

end
-- ==== Proof.KISetup.lean ====
/-
  The idealized kernel program's objects that every later module speaks of, at any float family `F`.

  @main is: host lines (the graph convolution, the batch normalisation, the rectifier, the zero padding of the
  12000 rows to 12288 and the change of format), ONE kernel region, one host line (the slice back to 12000 x 12000).
  The region reads the padded activations `z` (12288 x 128) through TWO input windows on the SAME array: window 0 takes the
  row block `i` (1536 rows), window 1 the row block `j`; the output window 2 takes the block `(i, j)` of the 12288 x 12288
  result. At every grid point the body stores `blockᵢ · blockⱼᵀ` (a matrix product into a zero accumulator) over the whole
  output block. Both input windows only read the shared array, so each holds half of its share.
-/
import proofs.«114029_j20822001451042_1_alg».proof.Proof.Gen.KernelIdeal.Launch
import proofs.«114029_j20822001451042_1_alg».proof.Proof.Gen.KernelIdeal.Skeleton
import proofs.«114029_j20822001451042_1_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The host lines before the region, stretch by stretch (the rectifier and the padding are called functions, each a
    stretch of its own). -/
abbrev prefixOps : List (List (HloOp τ sig (Elt F))) := [hostOps0, hostOps0_1, hostOps0_2, hostOps0_3, hostOps0_4]

/-- Core `c`'s buffer contents when the region is entered: the launch memory after the host lines before the region. -/
abbrev V0 (c : Dev nD) : Valuation τ sig (Elt F) := StableHlo.after (List.flatten (prefixOps (F := F))) (fun b => m (c, b))
/-- The same read at a TensorCore reference. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole output block, as a rectangle. -/
abbrev rOut : Rect S1536x1536 := Rect.unit (s := S1536x1536) ![0, 0] S1536x1536.size inb_S1536x1536_S1536x1536_0_0

/-- What the body leaves in the output window's buffer, from the two row blocks it loaded: its one store, over the whole
    block, of their product. -/
def mm (x0 x1 : Vec F S1536x128 .bf16) : Vec F S1536x1536 .f32 :=
  View.canon [⟨rOut, k0_pay1 x0 x1⟩]

/-- The pipeline's proof data on core `c`: the arrays as the region finds them; after the body at point `t` each input buffer
    still at its block and the output buffer at the product of the two blocks; the invariant the scoped buffers no window
    stages (there is none); nothing owed; the shared input array held half by each of the two windows that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => mm (iblk m c 0 t) (iblk m c 1 t)
  Φ _ := Pipeline.scopedRest spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = mm (iblk m c 0 t) (iblk m c 1 t) := by dsimp only [dats]

/-- The buffers' contents when the region is left: the result array at what the write-backs of all 64 points made of
    it, every other buffer as the region found it. -/
def W1 (c : Dev nD) : Valuation τ sig (Elt F) :=
  Function.update (V0 m c) (Proc.devRef .tc main_v72) ((dats m 0 c).arrAt 2 cfg0.N)

/-- And at the end of @main: after the slice that follows the region. -/
def Wfin (c : Dev nD) : Valuation τ sig (Elt F) := StableHlo.after (List.flatten [hostOps1 (F := F)]) (W1 m c)

end Cert.KernelIdeal.Hand

end
-- ==== Proof.KIBody.lean ====
/-
  The body obligation of the one kernel region, at any float family `F`.

  At grid point `t = (i, j)` the body finds row block `i` of the padded activations in window 0's buffer and row block `j`
  of the same array in window 1's buffer, whether or not either was moved in at that point: an input block that was not
  moved in has the block index of the point before, and the body leaves both input buffers as it found them. It reads the
  output buffer (the value read is dropped) and then writes the product of the two blocks over the whole of it, so the
  output buffer ends at that product whatever it held before.
-/
import proofs.«114029_j20822001451042_1_alg».proof.Proof.KISetup
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the body finds in the two input buffers -/

/-- Window 0's buffer holds row block `i` at every point, moved in there or not: where it was not moved in (`j ≠ 0`)
    the block index is the one of the point before, and the body leaves the block in place. -/
theorem before_rowBlock (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

/-- Window 1's buffer holds row block `j` at every point (it is moved in at each). -/
theorem before_colBlock (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)

/-! ## The one store covers the output block -/

/-- The store's rectangle is the whole 1536 x 1536 block, so every index of the block lies in it. -/
theorem cover_out (p0 : Vec F S1536x1536 .f32) (y : S1536x1536.Idx) :
    ∃ pc ∈ ([⟨rOut, p0⟩] : List (View.Piece (Elt F) S1536x1536 .f32)), y ∈ pc.1.set :=
  View.cover_of_tiled [⟨rOut, p0⟩] S1536x1536.size (by rfl) y

/-! ## What the two loads read -/

/-- A load of the whole 1536 x 128 block, at unit strides from the origin, reads the block itself: the rectangle places
    index `x` at `0 + 1 * x` on both axes. -/
theorem ld_wholeIn (X : Vec F S1536x128 .bf16) :
    View.ld (Val := Elt F) X (Rect.unit (s := S1536x128) ![0, 0] S1536x128.size inb_S1536x128_S1536x128_0_0) = X := by
  funext x
  show X _ = X x
  congr 1
  funext a
  apply Fin.ext
  rw [LoadRect.idx_apply]
  fin_cases a <;> simp

/-! ## The body's triple -/

set_option maxHeartbeats 1000000 in
/-- The body on whole buffers — the two inputs at read contents `x0`, `x1`, the output at anything — runs to the
    continuation with the inputs as they were and the output at the product `mm x0 x1`: two loads, a third load of the
    output whose value is dropped, and one store over the whole block. -/
theorem sound_kernel (c : Dev nD) (E : Set ℕ) (i : grid0.Coords)
    (arg2 : Memref sig .tc .vmem S1536x128 .bf16) (harg2 : arg2.IsWhole)
    (arg3 : Memref sig .tc .vmem S1536x128 .bf16) (harg3 : arg3.IsWhole)
    (arg4 : Memref sig .tc .vmem S1536x1536 .f32) (harg4 : arg4.IsWhole)
    (x0 x1 : Vec F S1536x128 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (mm x0 x1)) -∗ K ⟨⟩))
      ⊢ wp frame (wpE (defs₀ (F := F)) Variants.none c none) E (cc0__decode_kernel i arg2 harg2 arg3 harg3 arg4 harg4) K := by
  simp only [cc0__decode_kernel_eq_skeleton]; unfold cc0__decode_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- the store covers the block, so the buffer reads as the store's payload; each load read its whole block
  unfold mm
  rw [View.read_writes_eq_canon _ _ _ (cover_out _), View.readAt_eq_ld, View.readAt_eq_ld, ld_wholeIn, ld_wholeIn]

/-! ## The body obligation, at a generic point -/

/-- What the body is called with at point `t`: the invariant, what is owed, and the three current buffers, each input at
    what it holds before the body and the output at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- And what it returns: the same invariant and debt, each buffer at what the body leaves in it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input buffers hold the two row blocks, so the body's triple applies; the invariant and
    the debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rowBlock, before_colBlock]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KIDeal.lean ====
/-
  The shared input array, dealt and collected.

  The region's two input windows read ONE array (the padded activations); the output window writes another. Of the
  two distinct buffers behind the three windows, the activations' is split into its two half shares, one for each
  reading window, and the result's goes whole to the output window; collecting is the same equation read backwards.
  Also here: @main as host lines, the region, one host line.
-/
import proofs.«114029_j20822001451042_1_alg».proof.Proof.KISetup
import proofs.«114029_j20822001451042_1_alg».proof.Proof.LibSharedLaunch

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The distinct buffers behind the three windows are two: the padded activations and the result. -/
theorem arrRefs_eq : Finset.univ.image (Pipeline.arrRef spec0) = {main_v71, main_v72} := by decide

theorem share0 (c : Dev nD) : (dats m 0 c).share 0 = fullShare.left := rfl
theorem share1 (c : Dev nD) : (dats m 0 c).share 1 = fullShare.right := rfl
theorem share2 (c : Dev nD) : (dats m 0 c).share 2 = fullShare := rfl

set_option maxHeartbeats 1000000 in
/-- The two buffers, each whole, ARE the three windows' holdings at the same contents: the activations' buffer is its
    left half share (window 0) beside its right half share (window 1). -/
theorem arrays_iff (c : Dev nD) (W : Valuation τ sig (Elt F)) :
    (Pipeline.arrBufs spec0 c (fun b => W (Proc.devRef .tc b)) : sProp 𝕄)
      ⊣⊢ (dats m 0 c).arrays (fun w => W (Proc.devRef .tc (Pipeline.arrRef spec0 w))) := by
  unfold Pipeline.arrBufs Dat.arrays
  rw [arrRefs_eq, bigSep_W0, share0, share1, share2, (arr_whole0 0).set_eq_univ, (arr_whole0 2).set_eq_univ,
    bigSep_insert (by decide : main_v71 ∉ ({main_v72} : Finset (Ref sig .tc))), bigSep_singleton]
  show iprop((((c.tc : Thread nD τ).loc main_v71) ↦{fullShare} W (Proc.devRef .tc main_v71))
      ∗ (((c.tc : Thread nD τ).loc main_v72) ↦{fullShare} W (Proc.devRef .tc main_v72)))
    ⊣⊢ iprop((((c.tc : Thread nD τ).loc main_v71) ↦{fullShare.left} W (Proc.devRef .tc main_v71))
      ∗ (((c.tc : Thread nD τ).loc main_v71) ↦{fullShare.right} W (Proc.devRef .tc main_v71))
      ∗ (((c.tc : Thread nD τ).loc main_v72) ↦{fullShare} W (Proc.devRef .tc main_v72)))
  constructor
  · iintro ⟨H1, H2⟩
    ihave H := (pointsTo_share (PosShare.mem_left_op_right fullShare)).1 $$ H1
    icases H with ⟨Ha, Hb⟩
    isplitl [Ha]
    · iexact Ha
    isplitl [Hb]
    · iexact Hb
    · iexact H2
  · iintro ⟨Ha, Hb, H2⟩
    isplitr [H2]
    · iapply (pointsTo_share (PosShare.mem_left_op_right fullShare)).2
      isplitl [Ha]
      · iexact Ha
      · iexact Hb
    · iexact H2

/-- Dealing: from the two buffers to the three windows' holdings, at any contents the windows read off a valuation. -/
theorem deal (c : Dev nD) (W : Valuation τ sig (Elt F))
    (G : (w : Fin cfg0.W) → Buf (Elt F) ((cfg0.spec w).arr.view.loc (c.tc : Thread nD τ)))
    (hG : ∀ w, G w = W (Proc.devRef .tc (Pipeline.arrRef cfg0.spec w))) :
    (Pipeline.arrBufs cfg0.spec c (fun b => W (Proc.devRef .tc b)) : sProp 𝕄) ⊢ (dats m 0 c).arrays G := by
  obtain rfl : G = fun w => W (Proc.devRef .tc (Pipeline.arrRef cfg0.spec w)) := funext hG
  exact (arrays_iff m c W).1

/-- Collecting: the same equation read backwards. -/
theorem join (c : Dev nD) (W : Valuation τ sig (Elt F))
    (G : (w : Fin cfg0.W) → Buf (Elt F) ((cfg0.spec w).arr.view.loc (c.tc : Thread nD τ)))
    (hG : ∀ w, G w = W (Proc.devRef .tc (Pipeline.arrRef cfg0.spec w))) :
    (dats m 0 c).arrays G ⊢ (Pipeline.arrBufs cfg0.spec c (fun b => W (Proc.devRef .tc b)) : sProp 𝕄) := by
  obtain rfl : G = fun w => W (Proc.devRef .tc (Pipeline.arrRef cfg0.spec w)) := funext hG
  exact (arrays_iff m c W).2

/-! ## @main around the region -/

set_option maxHeartbeats 4000000 in
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the slice after it: it reduces to the region continued by
    the slice, the buffers at what the earlier lines left. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main prefixOps [hostOps1]
    (And.intro hostOps0_sub (And.intro hostOps0_1_sub (And.intro hostOps0_2_sub (And.intro hostOps0_3_sub hostOps0_4_sub))))
    (And.intro hostOps0_fresh (And.intro hostOps0_1_fresh (And.intro hostOps0_2_fresh (And.intro hostOps0_3_fresh hostOps0_4_fresh))))
    main_chain

/-- The slice after the region names TensorCore buffers only, -/
theorem tail_sub : ∀ ops ∈ ([hostOps1] : List (List (HloOp τ sig (Elt F)))), ∀ op ∈ ops, op.bufs ⊆ StableHlo.tcRefs τ sig := by
  intro ops hops op hop
  simp only [List.mem_cons, List.mem_nil_iff, or_false] at hops
  rcases hops with rfl
  exact (List.forall_iff_forall_mem.mp hostOps1_sub) op hop
/-- allocates nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and writes neither the activations nor the padded result (it writes the 12000 x 12000 result only). -/
theorem tail_keeps : ∀ ops ∈ ([hostOps1] : List (List (HloOp τ sig (Elt F)))), ∀ op ∈ ops,
    ∀ w, Proc.devRef .tc (Pipeline.arrRef cfg0.spec w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.unary_writes, Finset.mem_singleton] <;> exact StableHlo.devRef_ne_of_ne (by decide)

/-! ## The buffers at the region's exit -/

theorem W1_v72 (c : Dev nD) : W1 m c (Proc.devRef .tc main_v72) = (dats m 0 c).arrAt 2 cfg0.N := by
  unfold W1; exact Function.update_self _ _ _

theorem W1_of_ne (c : Dev nD) (b : Ref sig .tc) (hb : b ≠ main_v72) : W1 m c (Proc.devRef .tc b) = V0 m c (Proc.devRef .tc b) := by
  unfold W1; exact Function.update_of_ne (StableHlo.devRef_ne_of_ne hb) _ _

/-- Each window's array at the exit is what the exit valuation holds behind it: an input array is as the region found
    it, the output array is the pipeline's result. -/
theorem W1_arr (c : Dev nD) (w : Fin cfg0.W) : (dats m 0 c).arrAt w cfg0.N = W1 m c (Proc.devRef .tc (Pipeline.arrRef cfg0.spec w)) := by
  match w with
  | ⟨0, _⟩ => exact ((dats m 0 c).arrAt_in 0 rfl _).trans ((A_eq m c 0).trans (W1_of_ne m c main_v71 (by decide)).symm)
  | ⟨1, _⟩ => exact ((dats m 0 c).arrAt_in 1 rfl _).trans ((A_eq m c 1).trans (W1_of_ne m c main_v71 (by decide)).symm)
  | ⟨2, _⟩ => exact (W1_v72 m c).symm

theorem W1_rest (c : Dev nD) (b : Ref sig .tc) (hb : ∀ w, Pipeline.arrRef cfg0.spec w ≠ b) :
    W1 m c (Proc.devRef .tc b) = V0 m c (Proc.devRef .tc b) :=
  W1_of_ne m c b fun e => hb 2 (e ▸ rfl)

theorem A0_eq (c : Dev nD) (w : Fin cfg0.W) : (dats m 0 c).arrAt w 0 = V0 m c (Proc.devRef .tc (Pipeline.arrRef cfg0.spec w)) :=
  A_eq m c w

end Cert.KernelIdeal.Hand

end
-- ==== Proof.KIPrefix.lean ====
/-
  What the host lines before the region leave in the buffers the later modules read, at any float family.

  No host line writes an argument of @main, so the region finds the six arguments as launched. The array both input
  windows read is written by the last host line: it holds the rectified, normalised graph convolution of the arguments
  (the same composed term the reference program computes for its activations), extended by 288 rows of the integer zero
  converted to float, and changed to the 16-bit format.
-/
import proofs.«114029_j20822001451042_1_alg».proof.Proof.KISetup
import proofs.«114029_j20822001451042_1_alg».proof.Proof.Gen.ReferenceIdeal.Read
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable {F : FTy → Type} [FloatOps F]

variable (m : (ℓ : Loc nD τ sig) → Buf (Elt F) ℓ)

set_option maxHeartbeats 1000000 in
/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [prefixOps, hostOps0, hostOps0_1, hostOps0_2, hostOps0_3, hostOps0_4, List.flatten_cons, List.flatten_nil,
      List.append_nil, List.cons_append, List.nil_append, List.Forall, StableHlo.nullary_writes, StableHlo.unary_writes,
      StableHlo.binary_writes, StableHlo.ternary_writes, StableHlo.reshape_writes, Finset.mem_singleton]
    repeat' apply And.intro
    all_goals exact StableHlo.devRef_ne_of_ne (by decide)))

set_option maxHeartbeats 1000000 in
/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [prefixOps, hostOps0, hostOps0_1, hostOps0_2, hostOps0_3, hostOps0_4, List.flatten_cons, List.flatten_nil,
      List.append_nil, List.cons_append, List.nil_append, List.Forall, StableHlo.nullary_writes, StableHlo.unary_writes,
      StableHlo.binary_writes, StableHlo.ternary_writes, StableHlo.reshape_writes, Finset.mem_singleton]
    repeat' apply And.intro
    all_goals exact StableHlo.devRef_ne_of_ne (by decide)))

set_option maxHeartbeats 1000000 in
/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [prefixOps, hostOps0, hostOps0_1, hostOps0_2, hostOps0_3, hostOps0_4, List.flatten_cons, List.flatten_nil,
      List.append_nil, List.cons_append, List.nil_append, List.Forall, StableHlo.nullary_writes, StableHlo.unary_writes,
      StableHlo.binary_writes, StableHlo.ternary_writes, StableHlo.reshape_writes, Finset.mem_singleton]
    repeat' apply And.intro
    all_goals exact StableHlo.devRef_ne_of_ne (by decide)))

set_option maxHeartbeats 1000000 in
/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [prefixOps, hostOps0, hostOps0_1, hostOps0_2, hostOps0_3, hostOps0_4, List.flatten_cons, List.flatten_nil,
      List.append_nil, List.cons_append, List.nil_append, List.Forall, StableHlo.nullary_writes, StableHlo.unary_writes,
      StableHlo.binary_writes, StableHlo.ternary_writes, StableHlo.reshape_writes, Finset.mem_singleton]
    repeat' apply And.intro
    all_goals exact StableHlo.devRef_ne_of_ne (by decide)))

set_option maxHeartbeats 1000000 in
/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [prefixOps, hostOps0, hostOps0_1, hostOps0_2, hostOps0_3, hostOps0_4, List.flatten_cons, List.flatten_nil,
      List.append_nil, List.cons_append, List.nil_append, List.Forall, StableHlo.nullary_writes, StableHlo.unary_writes,
      StableHlo.binary_writes, StableHlo.ternary_writes, StableHlo.reshape_writes, Finset.mem_singleton]
    repeat' apply And.intro
    all_goals exact StableHlo.devRef_ne_of_ne (by decide)))

set_option maxHeartbeats 1000000 in
/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [prefixOps, hostOps0, hostOps0_1, hostOps0_2, hostOps0_3, hostOps0_4, List.flatten_cons, List.flatten_nil,
      List.append_nil, List.cons_append, List.nil_append, List.Forall, StableHlo.nullary_writes, StableHlo.unary_writes,
      StableHlo.binary_writes, StableHlo.ternary_writes, StableHlo.reshape_writes, Finset.mem_singleton]
    repeat' apply And.intro
    all_goals exact StableHlo.devRef_ne_of_ne (by decide)))

set_option maxHeartbeats 40000000 in
/-- The array both input windows read, as the region finds it: the reference's activations (the rectified, normalised
    graph convolution of the six arguments), extended below by 288 rows of the integer zero converted to float, then
    changed to the 16-bit format. The host lines up to the rectifier are, one by one, the lines by which the reference
    computes its activations; the zero constant, its conversion, the padding and the change of format are the four
    lines after them. Reading the last line's result back through the lines before it gives one composed term of the
    arguments, and the reference's stage is the same term folded into named stages. -/
theorem V_v71 (c : Dev nD) : V (F := F) m c main_v71
    = truncf .bf16 (pad S12288x128 ![0, 0] ![288, 0] ![0, 0]
        (Cert.ReferenceIdeal.Read.val_main_v69 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
        (sitofp .f32 (constantI S_ 32 0#32)) pads_S12000x128_S12288x128_02880_000 h_S_) bitsLt_bf16_f32 := by
  dsimp only [V, V0]
  simp only [prefixOps, hostOps0, hostOps0_1, hostOps0_2, hostOps0_3, hostOps0_4, List.flatten_cons, List.flatten_nil,
    List.append_nil, List.cons_append, List.nil_append]
  after_results_simp
  rfl

end Cert.KernelIdeal.Hand

end
-- ==== Proof.KIRun.lean ====
/-
  The run of the idealized kernel program, and what every buffer holds at its end.

  Every weakly fair execution of @main terminates without a fault, and at the end every unscoped buffer holds what the
  slice after the region makes of the buffers at the region's exit: the padded result at the pipeline's 64 written
  blocks, every other buffer as the host lines before the region left it. From that: the argument arrays end as they
  were launched (no line writes them, and they are no window's array), and the returned array is the leading
  12000 x 12000 corner of the padded result.
-/
import proofs.«114029_j20822001451042_1_alg».proof.Proof.KISetup
import proofs.«114029_j20822001451042_1_alg».proof.Proof.KIBody
import proofs.«114029_j20822001451042_1_alg».proof.Proof.KIDeal
import proofs.«114029_j20822001451042_1_alg».proof.Proof.KIPrefix
import proofs.«114029_j20822001451042_1_alg».proof.Proof.LibSharedLaunch
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

-- the launch theorem's implicit arguments are found by unifying its conclusion with this one, which unfolds plain
-- definitions in a metavariable's type
set_option backward.isDefEq.respectTransparency.types false in
/-- THE RUN: at the end of @main every unscoped buffer holds `Wfin`. -/
theorem run_main : θ_run defs (onTc (τ := τ) (main (F := F))) ⟨m, fun _ => 0, ρ⟩
    (fun r => ∀ (c : Dev nD) (b : Ref sig .tc), b.isScoped = false →
      r.2.mem ((c.tc : Thread nD τ).loc b) = Wfin m c (Proc.devRef .tc b)) :=
  Pipeline.θ_run_shared_around cfgs (dats m) (0 : Fin 1) defs₀ Variants.none cellOf_inj winFacts₀0 block_pos0 arr_whole0 stage_whole0 m ρ main
    (hbody := fun c => (body_obligation m c).loose) (howed := fun _ _ => rfl) (V₀ := V0 m) (W₁ := W1 m) (opss := [hostOps1])
    (hsub := tail_sub) (hfresh := tail_fresh) (hkeep := tail_keeps) (hmain := hmain m Variants.none)
    (hΦ0 := fun _ => .rfl) (hΦN := fun _ => .rfl) (hdeal := deal m) (hjoin := join m)
    (hA := A0_eq m) (hW₁arr := W1_arr m) (hW₁rest := W1_rest m)

/-- The slice writes no argument array, and the region's exit holds each as its entry did: it ends as launched. -/
theorem Wfin_of_kept (c : Dev nD) (b : Ref sig .tc) (hb72 : b ≠ main_v72) (hb73 : b ≠ main_v73) :
    Wfin m c (Proc.devRef .tc b) = V0 m c (Proc.devRef .tc b) := by
  unfold Wfin
  rw [StableHlo.after_of_forall_not_mem (b := Proc.devRef .tc b) _ _ (List.forall_iff_forall_mem.mp (by
      simp only [hostOps1, List.flatten_cons, List.flatten_nil, List.append_nil, List.Forall, StableHlo.unary_writes, Finset.mem_singleton]
      exact StableHlo.devRef_ne_of_ne hb73)),
    W1_of_ne m c b hb72]

/-- The returned array: the leading 12000 x 12000 corner of the padded result as the pipeline's write-backs left it. -/
theorem Wfin_v73 (c : Dev nD) : Wfin m c (Proc.devRef .tc main_v73)
    = extractStridedSlice S12000x12000 ![0, 0] ((dats m 0 c).arrAt 2 cfg0.N) slices_S12288x12288_S12000x12000_0_0 := by
  unfold Wfin
  simp only [hostOps1, List.flatten_cons, List.flatten_nil, List.append_nil]
  after_results
  rw [W1_v72]

/-- THE FRAME: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c main_arg0 rfl).trans ((Wfin_of_kept m c main_arg0 (by decide) (by decide)).trans (V_main_arg0 m c)),
     (h c main_arg1 rfl).trans ((Wfin_of_kept m c main_arg1 (by decide) (by decide)).trans (V_main_arg1 m c)),
     (h c main_arg2 rfl).trans ((Wfin_of_kept m c main_arg2 (by decide) (by decide)).trans (V_main_arg2 m c)),
     (h c main_arg3 rfl).trans ((Wfin_of_kept m c main_arg3 (by decide) (by decide)).trans (V_main_arg3 m c)),
     (h c main_arg4 rfl).trans ((Wfin_of_kept m c main_arg4 (by decide) (by decide)).trans (V_main_arg4 m c)),
     (h c main_arg5 rfl).trans ((Wfin_of_kept m c main_arg5 (by decide) (by decide)).trans (V_main_arg5 m c))⟩)
    (run_main m ρ)

/-- THE RESULT beside the frame: the returned array ends at the corner of the padded result. -/
theorem run_result : θ_run defs (onTc (τ := τ) (main (F := F))) ⟨m, fun _ => 0, ρ⟩ (fun r => ∀ c : Dev nD,
      r.2.mem ((c.tc : Thread nD τ).loc main_v73)
        = extractStridedSlice S12000x12000 ![0, 0] ((dats m 0 c).arrAt 2 cfg0.N) slices_S12288x12288_S12000x12000_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c main_v73 rfl).trans (Wfin_v73 m c),
     (h c main_arg0 rfl).trans ((Wfin_of_kept m c main_arg0 (by decide) (by decide)).trans (V_main_arg0 m c)),
     (h c main_arg1 rfl).trans ((Wfin_of_kept m c main_arg1 (by decide) (by decide)).trans (V_main_arg1 m c)),
     (h c main_arg2 rfl).trans ((Wfin_of_kept m c main_arg2 (by decide) (by decide)).trans (V_main_arg2 m c)),
     (h c main_arg3 rfl).trans ((Wfin_of_kept m c main_arg3 (by decide) (by decide)).trans (V_main_arg3 m c)),
     (h c main_arg4 rfl).trans ((Wfin_of_kept m c main_arg4 (by decide) (by decide)).trans (V_main_arg4 m c)),
     (h c main_arg5 rfl).trans ((Wfin_of_kept m c main_arg5 (by decide) (by decide)).trans (V_main_arg5 m c))⟩)
    (run_main m ρ)

end Cert.KernelIdeal.Hand

end
-- ==== Proof.Spec.lean ====
/-
  The mathematics of the certificate, with no program in sight.

  Both programs compute the same activations `z` (12000 rows of 128 features) and return the matrix of inner products of
  its rows, `out[i, j] = Σₖ z[i, k] · z[j, k]` (12000 x 12000). The kernel first appends 288 zero rows to `z`
  (12288 = 8 · 1536 rows, so that 1536-row blocks tile it), forms the 12288 x 12288 matrix of inner products of the padded
  rows block by block, and cuts the leading 12000 x 12000 corner out of it: an entry of that corner only ever reads rows
  below 12000, which the padding leaves as they were. No law beyond the definitions is needed; in particular nothing here
  asks the entries to be finite.
-/
import Idealize.ShloMosaic.PureOps.Ideal
import Idealize.ShloMosaic.Lib.ValueIdx

noncomputable section

open scoped BigOperators

namespace Cert.Spec

open Idealize.ShloMosaic Idealize.ShloMosaic.ValueIdx

/-- The activations: 12000 rows of 128 features; -/
abbrev Sz : Shape := ⟨2, ![12000, 128]⟩
/-- the same padded to 12288 rows; -/
abbrev Szp : Shape := ⟨2, ![12288, 128]⟩
/-- the result; -/
abbrev Sg : Shape := ⟨2, ![12000, 12000]⟩
/-- the padded result. -/
abbrev Sgp : Shape := ⟨2, ![12288, 12288]⟩

/-- The matrix of inner products of the rows of `z`. -/
def gram (z : Sz.Idx → EReal) : Sg.Idx → EReal :=
  fun ij => ∑ k : Fin 128, z (ix2 (⟨(ij 0).val, (ij 0).isLt⟩ : Fin 12000) k) * z (ix2 (⟨(ij 1).val, (ij 1).isLt⟩ : Fin 12000) k)

/-- The matrix of inner products of the rows of the padded activations. -/
def gramP (zp : Szp.Idx → EReal) : Sgp.Idx → EReal :=
  fun ij => ∑ k : Fin 128, zp (ix2 (⟨(ij 0).val, (ij 0).isLt⟩ : Fin 12288) k) * zp (ix2 (⟨(ij 1).val, (ij 1).isLt⟩ : Fin 12288) k)

theorem gram_apply (z : Sz.Idx → EReal) (i j : Fin 12000) :
    gram z (ix2 i j) = ∑ k : Fin 128, z (ix2 i k) * z (ix2 j k) := rfl

theorem gramP_apply (zp : Szp.Idx → EReal) (i j : Fin 12288) :
    gramP zp (ix2 i j) = ∑ k : Fin 128, zp (ix2 i k) * zp (ix2 j k) := rfl

end Cert.Spec

end
-- ==== Proof.KIArr.lean ====
/-
  The result array after all 64 write-backs, at the ideal values.

  The padded activations `zp` (12288 rows of 128 features) are cut into 8 row blocks of 1536 rows. Grid point `t` has
  coordinates `(t / 8, t % 8)`; it reads row block `t / 8` and row block `t % 8` of `zp` and writes the 1536 x 1536 block
  `(t / 8, t % 8)` of the result: entry `(p, q)` of that block is the inner product of row `p` of the first block with row `q`
  of the second, that is of rows `(t / 8) · 1536 + p` and `(t % 8) · 1536 + q` of `zp`. The 64 blocks tile the
  12288 x 12288 result (entry `(r, s)` lies in the block of point `8 · (r / 1536) + s / 1536`), so the array ends as the
  matrix of inner products of the rows of `zp`.
-/
import proofs.«114029_j20822001451042_1_alg».proof.Proof.KISetup
import proofs.«114029_j20822001451042_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable (m : (ℓ : Loc nD τ sig) → Buf (Elt Ideal) ℓ)

/-! ## The product of two row blocks at an entry -/

/-- The zero offsets of the whole-block rectangle, however they are spelt. -/
theorem zero_off : (![0, 0] : Fin 2 → Nat) = fun _ => 0 := funext fun a => by fin_cases a <;> rfl

/-- The product's left operand is read at the entry's row: its axis 0 is the result's axis 0; -/
theorem lhs_blk_0 (i : S1536x1536.Idx) (q : dot_S1536x128_S1536x128_S1536x1536_1_1_0_0_n_n.contr.Idx) :
    (dot_S1536x128_S1536x128_S1536x1536_1_1_0_0_n_n.lhsIdx i q 0).val = (i 0).val := by
  unfold DotDims.lhsIdx
  rw [dif_neg (show ¬(0 : Fin S1536x128.rank) ∈ dot_S1536x128_S1536x128_S1536x1536_1_1_0_0_n_n.lhsBatch by decide), dif_pos (show (0 : Fin S1536x128.rank) ∈ dot_S1536x128_S1536x128_S1536x1536_1_1_0_0_n_n.lhsNonContracting by decide)]
  rfl
/-- its axis 1 is the summed feature. -/
theorem lhs_blk_1 (i : S1536x1536.Idx) (q : dot_S1536x128_S1536x128_S1536x1536_1_1_0_0_n_n.contr.Idx) :
    (dot_S1536x128_S1536x128_S1536x1536_1_1_0_0_n_n.lhsIdx i q 1).val = (q ⟨0, by decide⟩).val :=
  dot_S1536x128_S1536x128_S1536x1536_1_1_0_0_n_n.lhsIdx_val_of_single rfl i q
/-- The right operand is read at the entry's column as ITS row: its axis 0 is the result's axis 1; -/
theorem rhs_blk_0 (i : S1536x1536.Idx) (q : dot_S1536x128_S1536x128_S1536x1536_1_1_0_0_n_n.contr.Idx) :
    (dot_S1536x128_S1536x128_S1536x1536_1_1_0_0_n_n.rhsIdx i q 0).val = (i 1).val := by
  unfold DotDims.rhsIdx
  rw [dif_neg (show ¬(0 : Fin S1536x128.rank) ∈ dot_S1536x128_S1536x128_S1536x1536_1_1_0_0_n_n.rhsBatch by decide), dif_pos (show (0 : Fin S1536x128.rank) ∈ dot_S1536x128_S1536x128_S1536x1536_1_1_0_0_n_n.rhsNonContracting by decide)]
  rfl
/-- its axis 1 is the summed feature. -/
theorem rhs_blk_1 (i : S1536x1536.Idx) (q : dot_S1536x128_S1536x128_S1536x1536_1_1_0_0_n_n.contr.Idx) :
    (dot_S1536x128_S1536x128_S1536x1536_1_1_0_0_n_n.rhsIdx i q 1).val = (q ⟨0, by decide⟩).val :=
  dot_S1536x128_S1536x128_S1536x1536_1_1_0_0_n_n.rhsIdx_val_of_single rfl i q

/-- Entry `(p, q)` of the product of two row blocks is the inner product of row `p` of the first with row `q` of the second. -/
theorem mm_apply (x0 x1 : Vec Ideal S1536x128 .bf16) (p q : Fin 1536) :
    mm x0 x1 (ix2 p q) = ∑ k : Fin 128, x0 (ix2 p k) * x1 (ix2 q k) := by
  unfold mm
  rw [View.canon_unit_zero zero_off]
  unfold k0_pay1
  rw [shapeCast_self, shapeCast_self]
  refine (Ideal.matmul_constant_zero_apply (φ₁ := .bf16) (φ₂ := .bf16) dot_S1536x128_S1536x128_S1536x1536_1_1_0_0_n_n none x0 x1 (ix2 p q)).trans ?_
  rw [← Equiv.sum_comp (ValueIdx.contrEquiv1 dot_S1536x128_S1536x128_S1536x1536_1_1_0_0_n_n 128 rfl rfl).symm]
  refine Finset.sum_congr rfl fun k _ => ?_
  have hk := ValueIdx.contrEquiv1_symm_val dot_S1536x128_S1536x128_S1536x1536_1_1_0_0_n_n 128 rfl rfl k
  have el : dot_S1536x128_S1536x128_S1536x1536_1_1_0_0_n_n.lhsIdx (ix2 p q) ((ValueIdx.contrEquiv1 dot_S1536x128_S1536x128_S1536x1536_1_1_0_0_n_n 128 rfl rfl).symm k) = ix2 p k := funext fun a => Fin.ext (by
    match a with
    | ⟨0, _⟩ => exact lhs_blk_0 _ _
    | ⟨1, _⟩ => exact (lhs_blk_1 _ _).trans hk)
  have er : dot_S1536x128_S1536x128_S1536x1536_1_1_0_0_n_n.rhsIdx (ix2 p q) ((ValueIdx.contrEquiv1 dot_S1536x128_S1536x128_S1536x1536_1_1_0_0_n_n 128 rfl rfl).symm k) = ix2 q k := funext fun a => Fin.ext (by
    match a with
    | ⟨0, _⟩ => exact rhs_blk_0 _ _
    | ⟨1, _⟩ => exact (rhs_blk_1 _ _).trans hk)
  rw [el, er]

/-! ## Where the three blocks of a grid point sit -/

/-- The windows' index maps over the grid: point `t` reads row block `t / 8` through window 0 and row block `t % 8` through
    window 1, and writes block `(t / 8, t % 8)` of the result. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = t.val % 8 :=
  (by decide +kernel : ∀ t : Fin grid0.N, _)

/-- Row `p` of window 0's block at point `t` is row `(t / 8) · 1536 + p` of the array. -/
theorem rowBlk_apply (zp : Vec Ideal S12288x128 .bf16) (t : Fin cfg0.N) (p : Fin 1536) (k : Fin 128) (r : Fin 12288)
    (hr : r.val = t.val / 8 * 1536 + p.val) :
    (((cfg0.win 0).blk t).view.read (Elt Ideal) zp : Vec Ideal S1536x128 .bf16) (ix2 p k) = zp (ix2 r k) := by
  obtain ⟨e0, e1, -⟩ := idx_facts t
  rw [View.read_apply]
  show zp _ = zp _
  congr 1
  funext a
  apply Fin.ext
  match a with
  | ⟨0, _⟩ => show win0_0.index t (0 : Fin 2) * 1536 + 1 * p.val = r.val; rw [e0, hr]; omega
  | ⟨1, _⟩ => show win0_0.index t (1 : Fin 2) * 128 + 1 * k.val = k.val; rw [e1]; omega

/-- Row `q` of window 1's block at point `t` is row `(t % 8) · 1536 + q` of the same array. -/
theorem colBlk_apply (zp : Vec Ideal S12288x128 .bf16) (t : Fin cfg0.N) (q : Fin 1536) (k : Fin 128) (s : Fin 12288)
    (hs : s.val = t.val % 8 * 1536 + q.val) :
    (((cfg0.win 1).blk t).view.read (Elt Ideal) zp : Vec Ideal S1536x128 .bf16) (ix2 q k) = zp (ix2 s k) := by
  obtain ⟨-, -, e2, e3, -⟩ := idx_facts t
  rw [View.read_apply]
  show zp _ = zp _
  congr 1
  funext a
  apply Fin.ext
  match a with
  | ⟨0, _⟩ => show win0_1.index t (0 : Fin 2) * 1536 + 1 * q.val = s.val; rw [e2, hs]; omega
  | ⟨1, _⟩ => show win0_1.index t (1 : Fin 2) * 128 + 1 * k.val = k.val; rw [e3]; omega

/-- Entry `(p, q)` of the output block at point `t` is entry `((t / 8) · 1536 + p, (t % 8) · 1536 + q)` of the result. -/
theorem outBlk_emb (t : Fin cfg0.N) (p q : Fin 1536) (r s : Fin 12288)
    (hr : r.val = t.val / 8 * 1536 + p.val) (hs : s.val = t.val % 8 * 1536 + q.val) :
    (((cfg0.win 2).blk t).view.emb (ix2 p q) : S12288x12288.Idx) = ix2 r s := by
  obtain ⟨-, -, -, -, e4, e5⟩ := idx_facts t
  funext a
  apply Fin.ext
  match a with
  | ⟨0, _⟩ => show win0_2.index t (0 : Fin 2) * 1536 + 1 * p.val = r.val; rw [e4, hr]; omega
  | ⟨1, _⟩ => show win0_2.index t (1 : Fin 2) * 1536 + 1 * q.val = s.val; rw [e5, hs]; omega

/-! ## What a grid point writes back, and the whole array -/

/-- Point `t` writes back block `t` of the matrix of inner products of the rows of the padded activations. -/
theorem flushed_eq (c : Dev nD) (t : Fin cfg0.N) :
    (dats (F := Ideal) m 0 c).flushed 2 t
      = ((cfg0.win 2).blk t).view.read (Elt Ideal) (Cert.Spec.gramP (V (F := Ideal) m c main_v71)) := by
  show (cfg0.win 2).cut (grid0.coords t) ((dats (F := Ideal) m 0 c).after 2 t) = _
  rw [after0_2]
  have ht : t.val < 64 := lt_of_lt_of_eq t.isLt N_0
  show (fun j : S1536x1536.Idx => mm (iblk m c 0 t) (iblk m c 1 t) j)
      = (fun j : S1536x1536.Idx => Cert.Spec.gramP (V (F := Ideal) m c main_v71) (((cfg0.win 2).blk t).view.emb j))
  funext j
  obtain ⟨p, q, rfl⟩ : ∃ (p q : Fin 1536), j = ix2 p q := ⟨j 0, j 1, eq_ix2 j⟩
  have hp := p.isLt
  have hq := q.isLt
  refine (mm_apply (iblk m c 0 t) (iblk m c 1 t) p q).trans ?_
  rw [outBlk_emb t p q ⟨t.val / 8 * 1536 + p.val, by omega⟩ ⟨t.val % 8 * 1536 + q.val, by omega⟩ rfl rfl,
    Cert.Spec.gramP_apply]
  refine Finset.sum_congr rfl fun k _ => ?_
  exact congrArg₂ (· * ·)
    (rowBlk_apply (V (F := Ideal) m c main_v71) t p k ⟨t.val / 8 * 1536 + p.val, by omega⟩ rfl)
    (colBlk_apply (V (F := Ideal) m c main_v71) t q k ⟨t.val % 8 * 1536 + q.val, by omega⟩ rfl)

/-- An entry of the result lies in point `t`'s block iff each coordinate is in the block's range on its axis. -/
theorem mem_blk (t : Fin cfg0.N) (i : S12288x12288.Idx) :
    i ∈ ((cfg0.win 2).blk t).view.set ↔ ∀ a : Fin 2, win0_2.index t a * S1536x1536.size a ≤ (i a).val
      ∧ (i a).val < win0_2.index t a * S1536x1536.size a + S1536x1536.size a := by
  show i ∈ ((View.whole main_v72).slice (win0_2.rect t)).set ↔ _
  rw [View.set_slice_whole, Rect.mem_set_unit]
  exact Iff.rfl

/-- The 64 blocks tile the result: entry `(r, s)` lies in the block of point `8 · (r / 1536) + s / 1536`. -/
theorem cover (i : S12288x12288.Idx) :
    ∃ t : Fin cfg0.N, (cfg0.win 2).flush t = true ∧ i ∈ ((cfg0.win 2).blk t).view.set := by
  have hi0 : (i 0).val < 12288 := (i 0).isLt
  have hi1 : (i 1).val < 12288 := (i 1).isLt
  obtain ⟨t, ht⟩ : ∃ t : Fin cfg0.N, t.val = 8 * ((i 0).val / 1536) + (i 1).val / 1536 :=
    ⟨⟨8 * ((i 0).val / 1536) + (i 1).val / 1536, by rw [show cfg0.N = 64 from N_0]; omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 1536 ≤ (i 0).val ∧ (i 0).val < win0_2.index t (0 : Fin 2) * 1536 + 1536
    rw [e4, ht]; omega
  | ⟨1, _⟩ =>
    show win0_2.index t (1 : Fin 2) * 1536 ≤ (i 1).val ∧ (i 1).val < win0_2.index t (1 : Fin 2) * 1536 + 1536
    rw [e5, ht]; omega

/-- The result array after all 64 write-backs: the matrix of inner products of the rows of the padded activations. -/
theorem arrAt_out (c : Dev nD) : (dats (F := Ideal) m 0 c).arrAt 2 cfg0.N = Cert.Spec.gramP (V (F := Ideal) m c main_v71) :=
  (dats (F := Ideal) m 0 c).arrAt_eq_of_cover 2 (Cert.Spec.gramP (V (F := Ideal) m c main_v71))
    (fun t _ => flushed_eq m c t) cover

end Cert.KernelIdeal.Hand

end
-- ==== Proof.PureGram.lean ====
/-
  The two facts of the certificate that speak of no program state: what the reference's last three values are, and what
  the kernel's detour through the padded rows returns.

  The reference transposes its activations `z` and contracts `z` with the transpose on the feature axis: entry `(i, j)`
  is `Σₖ z[i, k] · zᵀ[k, j] = Σₖ z[i, k] · z[j, k]`, the inner product of rows `i` and `j`.

  The kernel's side appends 288 rows to `z`, changes the format (the identity on extended reals), forms all inner
  products of the 12288 padded rows and keeps the entries `(i, j)` with `i, j < 12000`. Such an entry reads rows `i`
  and `j` of the padded array only, and a row below 12000 of the padded array is the row of `z`: the value the padding
  holds is never read.
-/
import proofs.«114029_j20822001451042_1_alg».proof.Proof.Spec
import proofs.«114029_j20822001451042_1_alg».proof.Proof.Gen.ReferenceIdeal.Read
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

open scoped BigOperators

namespace Cert.Spec

open Idealize.ShloMosaic Idealize.ShloMosaic.ValueIdx

/-- The reference's result is the matrix of inner products of the rows of its own activations. -/
theorem ref_gram (x0 : (⟨Cert.ReferenceIdeal.S12000x256, .f32⟩ : BufTy).Contents (Elt Ideal)) (x1 : (⟨Cert.ReferenceIdeal.S2x384000, .i32⟩ : BufTy).Contents (Elt Ideal)) (x2 : (⟨Cert.ReferenceIdeal.S256x128, .f32⟩ : BufTy).Contents (Elt Ideal)) (x3 x4 x5 : (⟨Cert.ReferenceIdeal.S128, .f32⟩ : BufTy).Contents (Elt Ideal)) :
    Cert.ReferenceIdeal.Read.val_main_v71 (F := Ideal) x0 x1 x2 x3 x4 x5 = gram (Cert.ReferenceIdeal.Read.val_main_v69 (F := Ideal) x0 x1 x2 x3 x4 x5) := by
  funext ij
  obtain ⟨i, j, rfl⟩ : ∃ (i j : Fin 12000), ij = ix2 i j := ⟨ij 0, ij 1, eq_ix2 ij⟩
  -- entry (i, j) of the contraction: the sum over the feature k of z at (i, k) times the transpose at (k, j)
  rw [Cert.ReferenceIdeal.Read.val_main_v71_apply]
  -- the transpose at (k, j) is z at (j, k)
  simp only [Cert.ReferenceIdeal.Read.val_main_v70_apply]
  generalize Cert.ReferenceIdeal.Read.val_main_v69 (F := Ideal) x0 x1 x2 x3 x4 x5 = z
  rw [gram_apply]
  refine Finset.sum_congr rfl fun k _ => ?_
  have el : Cert.ReferenceIdeal.Read.lidx_main_v71 (ix2 i j) k = ix2 i k :=
    funext fun a => Fin.ext (by match a with | ⟨0, _⟩ => rfl | ⟨1, _⟩ => rfl)
  have er : Cert.ReferenceIdeal.Read.idx_main_v70 (Cert.ReferenceIdeal.Read.ridx_main_v71 (ix2 i j) k) = ix2 j k :=
    funext fun a => Fin.ext (by match a with | ⟨0, _⟩ => rfl | ⟨1, _⟩ => rfl)
  rw [el, er]

/-- A row below 12000 of the padded activations is the row of the activations: on the row axis the padding is all
    after the operand, on the feature axis there is none. -/
theorem pad_rows_apply (z : Vec Ideal Sz .f32) (v : Vec Ideal (⟨0, ![]⟩ : Shape) .f32)
    (hp : Sz.Pads (![0, 0] : Fin 2 → Nat) ![288, 0] ![0, 0] Szp) (h0 : 0 < (⟨0, ![]⟩ : Shape).numel)
    (i : Fin 12288) (hi : i.val < 12000) (k : Fin 128) :
    pad Szp ![0, 0] ![288, 0] ![0, 0] z v hp h0 (ix2 i k) = z (ix2 (⟨i.val, hi⟩ : Fin 12000) k) :=
  pad_apply_of_inside ![0, 0] ![288, 0] ![0, 0] z v hp h0 (ix2 i k) (ix2 (⟨i.val, hi⟩ : Fin 12000) k) (fun a => by
    match a with
    | ⟨0, _⟩ => show i.val = 0 + i.val * (0 + 1); omega
    | ⟨1, _⟩ => show k.val = 0 + k.val * (0 + 1); omega)

/-- The kernel's way round: pad the activations with 288 rows of anything, change format, take all inner products of
    the padded rows, cut the 12000 x 12000 corner: the inner products of the original rows. -/
theorem corner_gramP_pad (z : Vec Ideal Sz .f32) (v : Vec Ideal (⟨0, ![]⟩ : Shape) .f32)
    (hp : Sz.Pads (![0, 0] : Fin 2 → Nat) ![288, 0] ![0, 0] Szp) (h0 : 0 < (⟨0, ![]⟩ : Shape).numel) (hb : FTy.bits .bf16 < FTy.bits .f32) (hs : Sgp.Slices ![0, 0] Sg) :
    extractStridedSlice Sg ![0, 0] (gramP (truncf (F := Ideal) .bf16 (pad Szp ![0, 0] ![288, 0] ![0, 0] z v hp h0) hb)) hs = gram z := by
  funext ij
  obtain ⟨i, j, rfl⟩ : ∃ (i j : Fin 12000), ij = ix2 i j := ⟨ij 0, ij 1, eq_ix2 ij⟩
  -- the corner's entry (i, j) is the padded matrix's entry (i, j)
  have hi : i.val < 12288 := by omega
  have hj : j.val < 12288 := by omega
  rw [extractStridedSlice_apply ![0, 0] _ hs (ix2 i j) (ix2 (⟨i.val, hi⟩ : Fin 12288) (⟨j.val, hj⟩ : Fin 12288)) (fun a => by
    match a with
    | ⟨0, _⟩ => show i.val = 0 + i.val; omega
    | ⟨1, _⟩ => show j.val = 0 + j.val; omega)]
  rw [gramP_apply, gram_apply]
  refine Finset.sum_congr rfl fun k _ => ?_
  -- the change of format is the identity; rows i and j are below 12000, where the padded array is z
  rw [truncf_apply, truncf_apply, pad_rows_apply z v hp h0 ⟨i.val, hi⟩ i.isLt k, pad_rows_apply z v hp h0 ⟨j.val, hj⟩ j.isLt k]

end Cert.Spec

end
-- ==== Proof.KIValue.lean ====
/-
  The returned array of the idealized kernel program as ONE function of the argument arrays.

  The region finds the reference's own activations `z` (as a function of the six arguments), padded with 288 zero rows,
  in its shared input array; its 64 written blocks make the padded result the matrix of inner products of the padded rows;
  the slice cuts the 12000 x 12000 corner, whose entries read only rows below 12000: the inner products of the rows of `z`.
-/
import proofs.«114029_j20822001451042_1_alg».proof.Proof.KISetup
import proofs.«114029_j20822001451042_1_alg».proof.Proof.KIArr
import proofs.«114029_j20822001451042_1_alg».proof.Proof.KIPrefix
import proofs.«114029_j20822001451042_1_alg».proof.Proof.PureGram

noncomputable section

namespace Cert.KernelIdeal.Hand

open Cert.KernelIdeal Cert.KernelIdeal.Gen
open Idealize.ShloMosaic Idealize.ShloMosaic.TcCoe
open Idealize.SL Idealize.SL.Sem

variable (m : (ℓ : Loc nD τ sig) → Buf (Elt Ideal) ℓ)

/-- The activations both programs compute, as the reference's own stage of the six argument arrays. -/
def zOf (c : Dev nD) : Cert.Spec.Sz.Idx → EReal :=
  Cert.ReferenceIdeal.Read.val_main_v69 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))

/-- The corner of the padded result is the matrix of inner products of the rows of the activations. -/
theorem result_eq (c : Dev nD) :
    extractStridedSlice S12000x12000 ![0, 0] ((dats (F := Ideal) m 0 c).arrAt 2 cfg0.N) slices_S12288x12288_S12000x12000_0_0
      = Cert.Spec.gram (zOf m c) := by
  rw [arrAt_out, V_v71]
  exact Cert.Spec.corner_gramP_pad _ _ _ _ _ _

end Cert.KernelIdeal.Hand

end
-- ==== Proof.lean ====
/-
  The certificate: a graph-convolution encoder followed by an inner-product decoder, the decoder a tiled kernel.

  Both programs compute the same activations z = relu(batchnorm(graph-conv(x))) (12000 x 128) with the same host
  operations, line for line. The reference returns z · zᵀ. The kernel program pads z with 288 zero rows, changes its
  format (the identity on the extended reals), and runs ONE kernel region over an 8 x 8 grid whose point (i, j) stores the
  product of row block i and row block j (both read from the ONE padded array, through two windows) into block (i, j) of a
  12288 x 12288 array; a slice returns its leading 12000 x 12000 corner. Entry (i, j) of that corner is Σₖ z[i, k] · z[j, k]
  on both sides: the padding rows are never read by it, and a matrix product into a zero accumulator is the plain sum.
  No step needs the inputs finite.

  The three frames: the two kernel programs by one run written at any float family (the region's two input windows share
  their array, each holding half of its share); the reference by its generated run. `preserves` has nothing to state.
-/
import proofs.«114029_j20822001451042_1_alg».proof.Defs
import proofs.«114029_j20822001451042_1_alg».proof.Proof.Gen.Kernel
import proofs.«114029_j20822001451042_1_alg».proof.Proof.Gen.KernelIdeal
import proofs.«114029_j20822001451042_1_alg».proof.Proof.Gen.ReferenceIdeal
import proofs.«114029_j20822001451042_1_alg».proof.Proof.Gen.Pre_finite_inputs
import proofs.«114029_j20822001451042_1_alg».proof.Proof.Gen.ReferenceIdeal.Run
import proofs.«114029_j20822001451042_1_alg».proof.Proof.Gen.ReferenceIdeal.Read
import proofs.«114029_j20822001451042_1_alg».proof.Proof.KRun
import proofs.«114029_j20822001451042_1_alg».proof.Proof.KIRun
import proofs.«114029_j20822001451042_1_alg».proof.Proof.KIValue
import proofs.«114029_j20822001451042_1_alg».proof.Proof.PureGram

noncomputable section

namespace Cert.Proof

open Idealize.ShloMosaic Idealize.SL.Sem

section Claims

variable [hKernel : Cert.Kernel.Facts] [hKernelIdeal : Cert.KernelIdeal.Facts] [hReferenceIdeal : Cert.ReferenceIdeal.Facts]
  [hPre : Cert.Pre_finite_inputs.Facts]

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the matrix of inner products of the rows of the activations, the activations one function of
    arguments that agree. -/
theorem algebraic : Cert.algebraic_KernelIdeal_ReferenceIdeal := by
  intro m ρ m' ρ' _ hagree
  refine ⟨fun c => Cert.Spec.gram (Cert.KernelIdeal.Hand.zOf m c), ?_, ?_⟩
  · exact (θ_run Cert.KernelIdeal.defs _ _).mono
      (fun _ h c => ⟨(h c).1.trans (Cert.KernelIdeal.Hand.result_eq m c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v71_eq, Cert.Spec.ref_gram, (hagree c).1, (hagree c).2.1, (hagree c).2.2.1,
      (hagree c).2.2.2.1, (hagree c).2.2.2.2.1, (hagree c).2.2.2.2.2]
    rfl

end Claims

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
